-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x2000000 : Shape := ⟨2, ![2, 2000000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x128 .f32) (main_arg1 : IVec S2x2000000 32) (main_arg2 : FVec F S128x128 .f32) (main_arg3 : FVec F S128 .f32) (main_arg4 : FVec F S128x1 .f32) (main_arg5 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1 .f32 := Host.absf main_arg4
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg5 main_v13 main_v16
-- ==== Kernel.lean ====
abbrev S100000x128 : Shape := ⟨2, ![100000, 128]⟩
abbrev S2x2000000 : Shape := ⟨2, ![2, 2000000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x2000000 : Shape := ⟨2, ![1, 2000000]⟩
abbrev S2000000 : Shape := ⟨1, ![2000000]⟩
abbrev S_ : Shape := ⟨0, ![]⟩
abbrev S2002944 : Shape := ⟨1, ![2002944]⟩
abbrev S2002944x1 : Shape := ⟨2, ![2002944, 1]⟩
abbrev S2002944x128 : Shape := ⟨2, ![2002944, 128]⟩
abbrev S4096x128 : Shape := ⟨2, ![4096, 128]⟩
abbrev S4096x1 : Shape := ⟨2, ![4096, 1]⟩
abbrev S1x128 : Shape := ⟨2, ![1, 128]⟩
abbrev S4096 : Shape := ⟨1, ![4096]⟩
abbrev S2000000x1 : Shape := ⟨2, ![2000000, 1]⟩

abbrev nBuf : Space → Nat
  | .hbm => 39
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x2000000, .i32⟩
  | .hbm, ⟨2, _⟩ => ⟨S128x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S1x2000000, .i32⟩
  | .hbm, ⟨7, _⟩ => ⟨S2000000, .i32⟩
  | .hbm, ⟨8, _⟩ => ⟨S1x2000000, .i32⟩
  | .hbm, ⟨9, _⟩ => ⟨S2000000, .i32⟩
  | .hbm, ⟨10, _⟩ => ⟨S_, .i32⟩
  | .hbm, ⟨11, _⟩ => ⟨S_, .i32⟩
  | .hbm, ⟨12, _⟩ => ⟨S2002944, .i32⟩
  | .hbm, ⟨13, _⟩ => ⟨S_, .i32⟩
  | .hbm, ⟨14, _⟩ => ⟨S_, .i32⟩
  | .hbm, ⟨15, _⟩ => ⟨S2002944, .i32⟩
  | .hbm, ⟨16, _⟩ => ⟨S100000x128, .bf16⟩
  | .hbm, ⟨17, _⟩ => ⟨S_, .i32⟩
  | .hbm, ⟨18, _⟩ => ⟨S2002944, .i32⟩
  | .hbm, ⟨19, _⟩ => ⟨S2002944, .i1⟩
  | .hbm, ⟨20, _⟩ => ⟨S_, .i32⟩
  | .hbm, ⟨21, _⟩ => ⟨S2002944, .i32⟩
  | .hbm, ⟨22, _⟩ => ⟨S2002944, .i32⟩
  | .hbm, ⟨23, _⟩ => ⟨S2002944, .i32⟩
  | .hbm, ⟨24, _⟩ => ⟨S2002944x1, .i32⟩
  | .hbm, ⟨25, _⟩ => ⟨S2002944x128, .bf16⟩
  | .hbm, ⟨26, _⟩ => ⟨S_, .i32⟩
  | .hbm, ⟨27, _⟩ => ⟨S2002944, .i32⟩
  | .hbm, ⟨28, _⟩ => ⟨S2002944, .i1⟩
  | .hbm, ⟨29, _⟩ => ⟨S_, .i32⟩
  | .hbm, ⟨30, _⟩ => ⟨S2002944, .i32⟩
  | .hbm, ⟨31, _⟩ => ⟨S2002944, .i32⟩
  | .hbm, ⟨32, _⟩ => ⟨S2002944, .i32⟩
  | .hbm, ⟨33, _⟩ => ⟨S2002944x1, .i32⟩
  | .hbm, ⟨34, _⟩ => ⟨S2002944x128, .bf16⟩
  | .hbm, ⟨35, _⟩ => ⟨S128x128, .bf16⟩
  | .hbm, ⟨36, _⟩ => ⟨S2002944x1, .f32⟩
  | .hbm, ⟨37, _⟩ => ⟨S2000000x1, .f32⟩
  | .hbm, ⟨38, _⟩ => ⟨S2000000, .f32⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S128x128, .bf16⟩
  | .local _ .vmem, ⟨5, _⟩ => ⟨S128, .f32⟩
  | .local _ .vmem, ⟨6, _⟩ => ⟨S128x1, .f32⟩
  | .local _ .vmem, ⟨7, _⟩ => ⟨S1, .f32⟩
  | .local _ .vmem, ⟨8, _⟩ => ⟨S4096x1, .f32⟩
  | .local _ .vmem, ⟨9, _⟩ => ⟨S4096x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_c_0 : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![489], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  pads_S2000000_S2002944_029440 : S2000000.Pads (![0] : Fin 1 → Nat) ![2944] ![0] S2002944
  h_S_ : 0 < S_.numel
  bitsLt_bf16_f32 : FTy.bits .bf16 < FTy.bits .f32
  bcast_S_S2002944 : S_.BroadcastsInDim S2002944 (![] : Fin 0 → Fin S2002944.rank)
  bcast_S2002944_S2002944x1_0 : S2002944.BroadcastsInDim S2002944x1 (![0] : Fin 1 → Fin S2002944x1.rank)
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  inb_S128x1_S128x1_0_0 : ∀ a, (![0, 0] : Fin 2 → Nat) a + S128x1.size a ≤ S128x1.size a
  h_S128x1 : 0 < S128x1.numel
  shapeCasts_S128x1_S128 : S128x1.ShapeCasts S128
  reduces_S4096x128_S4096 : S4096x128.Reduces [1] S4096
  shapeCasts_S4096_S4096x1 : S4096.ShapeCasts S4096x1
  inb_S1_S1_0 : ∀ a, (![0] : Fin 1 → Nat) a + S1.size a ≤ S1.size a
  h_S1 : 0 < S1.numel
  inpos_S1_p0 : ∀ a, (![0] : Fin 1 → Nat) a < S1.size a
  inb_S4096x1_S4096x1_0_0 : ∀ a, (![0, 0] : Fin 2 → Nat) a + S4096x1.size a ≤ S4096x1.size a
  h_S4096x1 : 0 < S4096x1.numel
  slices_S2002944x1_S2000000x1_0_0 : S2002944x1.Slices ![0, 0] S2000000x1
  shapeCasts_S2000000x1_S2000000 : S2000000x1.ShapeCasts S2000000
  gather_S100000x128_S2002944x1_S2002944x128_1_0_n_n_0_1_1128_wf : GatherDims.WF S100000x128 S2002944x1 S2002944x128 [1] [0] [] [0] [] 1 ![1, 128]
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S2002944x128.size a
  hwx0_0 : ∀ i : grid0.Coords, EltTy.bits .bf16 = 32 ∨ (Rect.block (s := S2002944x128) S4096x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S2002944x128.size a
  hwx0_1 : ∀ i : grid0.Coords, EltTy.bits .bf16 = 32 ∨ (Rect.block (s := S2002944x128) S4096x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S128x1.size a
  hwx0_4 : ∀ i : grid0.Coords, EltTy.bits .f32 = 32 ∨ (Rect.block (s := S128x1) S128x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1.size a ≤ S1.size a
  hwx0_5 : ∀ i : grid0.Coords, EltTy.bits .f32 = 32 ∨ (Rect.block (s := S1) S1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x1.size a ≤ S2002944x1.size a
  hwx0_6 : ∀ i : grid0.Coords, EltTy.bits .f32 = 32 ∨ (Rect.block (s := S2002944x1) S4096x1.size (cc0_transform_6 i) (hinb0_6 i)).WholeWords (EltTy.packing .f32)

variable [Facts₀]

def gather_S100000x128_S2002944x1_S2002944x128_1_0_n_n_0_1_1128 : GatherDims S100000x128 S2002944x1 S2002944x128 where
  offsetDims := [1]
  collapsedSliceDims := [0]
  operandBatchingDims := []
  startIndicesBatchingDims := []
  startIndexMap := [0]
  indexVectorDim := 1
  sliceSizes := ![1, 128]
  wf := gather_S100000x128_S2002944x1_S2002944x128_1_0_n_n_0_1_1128_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_v13) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S4096x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x2000000 : Shape := ⟨2, ![2, 2000000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x2000000 : Shape := ⟨2, ![1, 2000000]⟩
abbrev S2000000 : Shape := ⟨1, ![2000000]⟩
abbrev S_ : Shape := ⟨0, ![]⟩
abbrev S2000000x1 : Shape := ⟨2, ![2000000, 1]⟩
abbrev S2000000x128 : Shape := ⟨2, ![2000000, 128]⟩
abbrev S1x128 : Shape := ⟨2, ![1, 128]⟩
abbrev S1x1 : Shape := ⟨2, ![1, 1]⟩

abbrev nBuf : Space → Nat
  | .hbm => 41
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x2000000, .i32⟩
  | .hbm, ⟨2, _⟩ => ⟨S128x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S1x2000000, .i32⟩
  | .hbm, ⟨7, _⟩ => ⟨S2000000, .i32⟩
  | .hbm, ⟨8, _⟩ => ⟨S1x2000000, .i32⟩
  | .hbm, ⟨9, _⟩ => ⟨S2000000, .i32⟩
  | .hbm, ⟨10, _⟩ => ⟨S_, .i32⟩
  | .hbm, ⟨11, _⟩ => ⟨S2000000, .i32⟩
  | .hbm, ⟨12, _⟩ => ⟨S2000000, .i1⟩
  | .hbm, ⟨13, _⟩ => ⟨S_, .i32⟩
  | .hbm, ⟨14, _⟩ => ⟨S2000000, .i32⟩
  | .hbm, ⟨15, _⟩ => ⟨S2000000, .i32⟩
  | .hbm, ⟨16, _⟩ => ⟨S2000000, .i32⟩
  | .hbm, ⟨17, _⟩ => ⟨S2000000x1, .i32⟩
  | .hbm, ⟨18, _⟩ => ⟨S2000000x128, .f32⟩
  | .hbm, ⟨19, _⟩ => ⟨S_, .i32⟩
  | .hbm, ⟨20, _⟩ => ⟨S2000000, .i32⟩
  | .hbm, ⟨21, _⟩ => ⟨S2000000, .i1⟩
  | .hbm, ⟨22, _⟩ => ⟨S_, .i32⟩
  | .hbm, ⟨23, _⟩ => ⟨S2000000, .i32⟩
  | .hbm, ⟨24, _⟩ => ⟨S2000000, .i32⟩
  | .hbm, ⟨25, _⟩ => ⟨S2000000, .i32⟩
  | .hbm, ⟨26, _⟩ => ⟨S2000000x1, .i32⟩
  | .hbm, ⟨27, _⟩ => ⟨S2000000x128, .f32⟩
  | .hbm, ⟨28, _⟩ => ⟨S2000000x128, .f32⟩
  | .hbm, ⟨29, _⟩ => ⟨S2000000x128, .f32⟩
  | .hbm, ⟨30, _⟩ => ⟨S1x128, .f32⟩
  | .hbm, ⟨31, _⟩ => ⟨S2000000x128, .f32⟩
  | .hbm, ⟨32, _⟩ => ⟨S2000000x128, .f32⟩
  | .hbm, ⟨33, _⟩ => ⟨S_, .f32⟩
  | .hbm, ⟨34, _⟩ => ⟨S2000000x128, .f32⟩
  | .hbm, ⟨35, _⟩ => ⟨S2000000x128, .f32⟩
  | .hbm, ⟨36, _⟩ => ⟨S2000000x1, .f32⟩
  | .hbm, ⟨37, _⟩ => ⟨S1x1, .f32⟩
  | .hbm, ⟨38, _⟩ => ⟨S2000000x1, .f32⟩
  | .hbm, ⟨39, _⟩ => ⟨S2000000x1, .f32⟩
  | .hbm, ⟨40, _⟩ => ⟨S2000000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_cst : Ref sig .tc := ⟨.hbm, 33, rfl⟩
abbrev main_call0_v0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S128_S1x128_1 : S128.BroadcastsInDim S1x128 (![1] : Fin 1 → Fin S1x128.rank)
  bcast_S1x128_S2000000x128_0_1 : S1x128.BroadcastsInDim S2000000x128 (![0, 1] : Fin 2 → Fin S2000000x128.rank)
  bcast_S_S2000000x128 : S_.BroadcastsInDim S2000000x128 (![] : Fin 0 → Fin S2000000x128.rank)
  bcast_S1_S1x1_1 : S1.BroadcastsInDim S1x1 (![1] : Fin 1 → Fin S1x1.rank)
  bcast_S1x1_S2000000x1_0_1 : S1x1.BroadcastsInDim S2000000x1 (![0, 1] : Fin 2 → Fin S2000000x1.rank)
  shapeCasts_S2000000x1_S2000000 : S2000000x1.ShapeCasts S2000000
  gather_S100000x128_S2000000x1_S2000000x128_1_0_n_n_0_1_1128_wf : GatherDims.WF S100000x128 S2000000x1 S2000000x128 [1] [0] [] [0] [] 1 ![1, 128]
  dot_S2000000x128_S128x128_S2000000x128_1_0_0_1_n_n_wf : DotDims.WF S2000000x128 S128x128 S2000000x128 [1] [0] [0] [1] [] []
  dot_S2000000x128_S128x1_S2000000x1_1_0_0_1_n_n_wf : DotDims.WF S2000000x128 S128x1 S2000000x1 [1] [0] [0] [1] [] []

variable [Facts₀]

def gather_S100000x128_S2000000x1_S2000000x128_1_0_n_n_0_1_1128 : GatherDims S100000x128 S2000000x1 S2000000x128 where
  offsetDims := [1]
  collapsedSliceDims := [0]
  operandBatchingDims := []
  startIndicesBatchingDims := []
  startIndexMap := [0]
  indexVectorDim := 1
  sliceSizes := ![1, 128]
  wf := gather_S100000x128_S2000000x1_S2000000x128_1_0_n_n_0_1_1128_wf
def dot_S2000000x128_S128x128_S2000000x128_1_0_0_1_n_n : DotDims S2000000x128 S128x128 S2000000x128 where
  lhsContracting := [1]
  rhsContracting := [0]
  lhsNonContracting := [0]
  rhsNonContracting := [1]
  lhsBatch := []
  rhsBatch := []
  wf := dot_S2000000x128_S128x128_S2000000x128_1_0_0_1_n_n_wf
def dot_S2000000x128_S128x1_S2000000x1_1_0_0_1_n_n : DotDims S2000000x128 S128x1 S2000000x1 where
  lhsContracting := [1]
  rhsContracting := [0]
  lhsNonContracting := [0]
  rhsNonContracting := [1]
  lhsBatch := []
  rhsBatch := []
  wf := dot_S2000000x128_S128x1_S2000000x1_1_0_0_1_n_n_wf

class Facts : Prop extends Facts₀ where

variable [Facts]
-- ==== Proof.LibScatterGather.lean ====
/- The host's accumulating scatter and its row gather, read at one index, for the shapes that a segment sum
   over a list of edges and a row lookup by a list of edges take: a vector or a matrix of rows indexed by an
   [E × 1] column of signed index words.

   An update whose index word, read signed, lies in [0, N) is added into that row; any other update is dropped.
   A gathered row is the row at the index word read signed and clamped into [0, N − 1]. -/
import Idealize.ShloMosaic.PureOps.Ideal
import Idealize.ShloMosaic.Lib.ValueIdx
import Idealize.ShloMosaic.Lib.StableHlo.Predicate

noncomputable section

namespace Cert.ScatterGather

open Idealize.ShloMosaic Idealize.ShloMosaic.ValueIdx
open scoped BigOperators

/-- The row an index word names for a scatter into `N` rows: the word read signed, when it lies in [0, N);
    no row otherwise (the update is dropped). -/
def tgtW (N : Nat) {w : Nat} (x : BitVec w) : Option (Fin N) :=
  if h : 0 ≤ x.toInt ∧ x.toInt < (N : Int) then some ⟨x.toInt.toNat, by omega⟩ else none

/-- The row an index word names for a gather from `N` rows: the word read signed and clamped into [0, N − 1]. -/
def rowW (N : Nat) (hN : 0 < N) {w : Nat} (x : BitVec w) : Fin N := ⟨min x.toInt.toNat (N - 1), by omega⟩

/-- A word that names row `i` for the scatter names the same row for the gather. -/
theorem rowW_of_tgtW {N : Nat} (hN : 0 < N) {w : Nat} (x : BitVec w) (i : Fin N) (h : tgtW N x = some i) :
    rowW N hN x = i := by
  unfold tgtW at h
  split at h
  · next hx =>
    have hi : (⟨x.toInt.toNat, by omega⟩ : Fin N) = i := Option.some.inj h
    subst hi
    apply Fin.ext
    show min x.toInt.toNat (N - 1) = x.toInt.toNat
    omega
  · exact absurd h (by simp)

/-- A rank-1 index set is its one coordinate range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The scatter into a vector -/

section Vec

variable {N E w : Nat} (d : ScatterDims ⟨1, ![N]⟩ ⟨2, ![E, 1]⟩ ⟨1, ![E]⟩)

/-- The start of update `e`'s window on the operand's one axis: the e-th index word, read signed. -/
theorem start_vec (hs : d.scatterDimsToOperandDims = [0]) (hv : d.indexVectorDim = 1)
    (idx : IVec ⟨2, ![E, 1]⟩ w) (e : Fin E) :
    d.start (ix1 e) idx 0 = (idx (ix2 e 0)).toInt := by
  have hm : (0 : Fin 1) ∈ d.scatterDimsToOperandDims := by rw [hs]; exact List.mem_singleton.mpr rfl
  unfold ScatterDims.start
  rw [dif_pos hm]
  congr 2
  funext b
  match b with
  | ⟨0, _⟩ =>
    unfold ScatterDims.siIdx
    rw [dif_neg (by rw [hv]; simp)]
    unfold ScatterDims.siCoord
    apply Fin.ext
    simp only [Fin.val_cast]
    have e' : ∀ X : Fin 1, ((ix1 e : (⟨1, ![E]⟩ : Shape).Idx) X).val = e.val := fun X => by
      have hX : X = 0 := Subsingleton.elim _ _
      subst hX; rfl
    exact e' _
  | ⟨1, _⟩ =>
    unfold ScatterDims.siIdx
    rw [dif_pos (by rw [hv])]
    apply Fin.ext
    show List.idxOf (0 : Fin 1) d.scatterDimsToOperandDims = 0
    rw [hs]; simp

/-- The operand's one axis is inserted: the window coordinate there is 0. -/
theorem window_vec (hi : d.insertedWindowDims = [0]) (j : (⟨1, ![E]⟩ : Shape).Idx) : d.window j 0 = 0 := by
  have hk : (0 : Fin 1) ∉ d.sKept := by simp [ScatterDims.sKept, Shape.kept, hi]
  unfold ScatterDims.window
  rw [dif_neg hk]

/-- Where update `e` lands: the row its index word names, when it names one. -/
theorem resultIdx?_vec (hi : d.insertedWindowDims = [0])
    (hs : d.scatterDimsToOperandDims = [0]) (hv : d.indexVectorDim = 1)
    (idx : IVec ⟨2, ![E, 1]⟩ w) (e : Fin E) :
    d.resultIdx? (ix1 e) idx = (tgtW N (idx (ix2 e 0))).map ix1 := by
  have hst := start_vec d hs hv idx e
  have hwi := window_vec d hi (ix1 e)
  unfold ScatterDims.resultIdx? tgtW
  by_cases hx : 0 ≤ (idx (ix2 e 0)).toInt ∧ (idx (ix2 e 0)).toInt < (N : Int)
  · have hall : ∀ a : Fin 1, 0 ≤ d.start (ix1 e) idx a + d.window (ix1 e) a ∧
        d.start (ix1 e) idx a + d.window (ix1 e) a < (⟨1, ![N]⟩ : Shape).size a := fun a => by
      obtain rfl : a = 0 := Subsingleton.elim _ _
      rw [hst, hwi]
      show 0 ≤ (idx (ix2 e 0)).toInt + ((0 : Nat) : Int) ∧ (idx (ix2 e 0)).toInt + ((0 : Nat) : Int) < (N : Int)
      omega
    rw [dif_pos hall, dif_pos hx]
    show some _ = some _
    congr 1
    funext a
    obtain rfl : a = 0 := Subsingleton.elim _ _
    apply Fin.ext
    show (d.start (ix1 e) idx 0 + d.window (ix1 e) 0).toNat = (idx (ix2 e 0)).toInt.toNat
    rw [hst, hwi]
    simp
  · have hnall : ¬ ∀ a : Fin 1, 0 ≤ d.start (ix1 e) idx a + d.window (ix1 e) a ∧
        d.start (ix1 e) idx a + d.window (ix1 e) a < (⟨1, ![N]⟩ : Shape).size a := fun hall => by
      have h0 := hall 0
      rw [hst, hwi] at h0
      apply hx
      have h0' : 0 ≤ (idx (ix2 e 0)).toInt + ((0 : Nat) : Int) ∧ (idx (ix2 e 0)).toInt + ((0 : Nat) : Int) < (N : Int) := h0
      omega
    rw [dif_neg hnall, dif_neg hx]
    rfl

end Vec

/-- The scatter-add into a vector, at row `i`: the operand there plus the updates whose index word names row `i`. -/
theorem scatterAdd_vec_apply {N E w : Nat}
    (d : ScatterDims ⟨1, ![N]⟩ ⟨2, ![E, 1]⟩ ⟨1, ![E]⟩)
    (hu : d.updateWindowDims = []) (hi : d.insertedWindowDims = [0])
    (hs : d.scatterDimsToOperandDims = [0]) (hv : d.indexVectorDim = 1)
    (x : (⟨1, ![N]⟩ : Shape).Idx → EReal) (idx : IVec ⟨2, ![E, 1]⟩ w) (upd : (⟨1, ![E]⟩ : Shape).Idx → EReal) (i : Fin N) :
    Ideal.hostScatterAdd d x idx upd (ix1 i)
      = x (ix1 i) + ∑ e ∈ Finset.univ.filter (fun e : Fin E => tgtW N (idx (ix2 e 0)) = some i), upd (ix1 e) := by
  show x (ix1 i) + ∑ j ∈ Finset.univ.filter (fun j => d.resultIdx? j idx = some (ix1 i)), upd j = _
  congr 1
  rw [Finset.sum_filter, Finset.sum_filter, sum_idx1]
  refine Finset.sum_congr rfl fun e _ => ?_
  have hiff : d.resultIdx? (ix1 e) idx = some (ix1 i) ↔ tgtW N (idx (ix2 e 0)) = some i := by
    rw [resultIdx?_vec d hi hs hv idx e]
    cases tgtW N (idx (ix2 e 0)) with
    | none => simp
    | some r =>
      simp only [Option.map_some, Option.some.injEq]
      constructor
      · intro h'
        exact congrFun h' 0
      · intro h'
        rw [h']
  exact if_congr hiff rfl rfl

/-! ## The scatter of rows into a matrix -/

/-- The first coordinate of a rank-2 index, read on an axis known to be axis 0. -/
theorem ix2_val_axis0 {n0 n1 : Nat} (a : Fin n0) (b : Fin n1) (X : Fin 2) (hX : X = 0) :
    ((ix2 a b : (⟨2, ![n0, n1]⟩ : Shape).Idx) X).val = a.val := by
  subst hX; rfl

/-- The second coordinate of a rank-2 index, read on an axis known to be axis 1. -/
theorem ix2_val_axis1 {n0 n1 : Nat} (a : Fin n0) (b : Fin n1) (X : Fin 2) (hX : X = 1) :
    ((ix2 a b : (⟨2, ![n0, n1]⟩ : Shape).Idx) X).val = b.val := by
  subst hX; rfl

section Rows

variable {N H E w : Nat} (d : ScatterDims ⟨2, ![N, H]⟩ ⟨2, ![E, 1]⟩ ⟨2, ![E, H]⟩)

/-- The updates' scatter axis is axis 0 (axis 1 is the window axis). -/
theorem uScatter_rows (hu : d.updateWindowDims = [1]) : d.uScatter = [0] := by
  show (List.finRange 2).filter (fun a => a ∉ d.updateWindowDims) = [0]
  rw [hu]
  exact (by decide : (List.finRange 2).filter (fun a : Fin 2 => a ∉ [(1 : Fin 2)]) = [(0 : Fin 2)])

/-- The operand's kept axis is axis 1 (axis 0 is inserted). -/
theorem sKept_rows (hi : d.insertedWindowDims = [0]) : d.sKept = [1] := by
  show (List.finRange 2).filter (fun a => a ∉ d.insertedWindowDims) = [1]
  rw [hi]
  exact (by decide : (List.finRange 2).filter (fun a : Fin 2 => a ∉ [(0 : Fin 2)]) = [(1 : Fin 2)])

/-- The start of update (e, c)'s window on the operand's row axis: the e-th index word, read signed. -/
theorem start_rows0 (hu : d.updateWindowDims = [1])
    (hs : d.scatterDimsToOperandDims = [0]) (hv : d.indexVectorDim = 1)
    (idx : IVec ⟨2, ![E, 1]⟩ w) (e : Fin E) (c : Fin H) :
    d.start (ix2 e c) idx 0 = (idx (ix2 e 0)).toInt := by
  have hm : (0 : Fin 2) ∈ d.scatterDimsToOperandDims := by rw [hs]; exact List.mem_singleton.mpr rfl
  unfold ScatterDims.start
  rw [dif_pos hm]
  congr 2
  funext b
  match b with
  | ⟨0, _⟩ =>
    unfold ScatterDims.siIdx
    rw [dif_neg (by rw [hv]; simp)]
    unfold ScatterDims.siCoord
    apply Fin.ext
    simp only [Fin.val_cast]
    refine ix2_val_axis0 e c _ ?_
    have hall : ∀ X ∈ d.uScatter, X = 0 := by
      rw [uScatter_rows d hu]; intro X hX; exact List.mem_singleton.mp hX
    exact hall _ (List.getElem_mem _)
  | ⟨1, _⟩ =>
    unfold ScatterDims.siIdx
    rw [dif_pos (by rw [hv])]
    apply Fin.ext
    show List.idxOf (0 : Fin 2) d.scatterDimsToOperandDims = 0
    rw [hs]; simp

/-- The start index names no column: the window starts at column 0. -/
theorem start_rows1 (hs : d.scatterDimsToOperandDims = [0])
    (idx : IVec ⟨2, ![E, 1]⟩ w) (j : (⟨2, ![E, H]⟩ : Shape).Idx) : d.start j idx 1 = 0 := by
  have hm : (1 : Fin 2) ∉ d.scatterDimsToOperandDims := by
    rw [hs]; exact (by decide : (1 : Fin 2) ∉ [(0 : Fin 2)])
  unfold ScatterDims.start
  rw [dif_neg hm]

/-- The operand's row axis is inserted: the window coordinate there is 0. -/
theorem window_rows0 (hi : d.insertedWindowDims = [0]) (j : (⟨2, ![E, H]⟩ : Shape).Idx) : d.window j 0 = 0 := by
  have hk : (0 : Fin 2) ∉ d.sKept := by
    rw [sKept_rows d hi]; exact (by decide : (0 : Fin 2) ∉ [(1 : Fin 2)])
  unfold ScatterDims.window
  rw [dif_neg hk]

/-- The operand's column axis is the window axis: the window coordinate there is the update's column. -/
theorem window_rows1 (hu : d.updateWindowDims = [1]) (hi : d.insertedWindowDims = [0]) (e : Fin E) (c : Fin H) :
    d.window (ix2 e c) 1 = c.val := by
  have hk : (1 : Fin 2) ∈ d.sKept := by rw [sKept_rows d hi]; exact List.mem_singleton.mpr rfl
  unfold ScatterDims.window
  rw [dif_pos hk]
  refine ix2_val_axis1 e c _ ?_
  have hall : ∀ X ∈ d.updateWindowDims, X = 1 := by
    rw [hu]; intro X hX; exact List.mem_singleton.mp hX
  exact hall _ (List.getElem_mem _)

/-- Where update (e, c) lands: column `c` of the row its index word names, when it names one. -/
theorem resultIdx?_rows (hu : d.updateWindowDims = [1]) (hi : d.insertedWindowDims = [0])
    (hs : d.scatterDimsToOperandDims = [0]) (hv : d.indexVectorDim = 1)
    (idx : IVec ⟨2, ![E, 1]⟩ w) (e : Fin E) (c : Fin H) :
    d.resultIdx? (ix2 e c) idx = (tgtW N (idx (ix2 e 0))).map (fun r => ix2 r c) := by
  have hst0 := start_rows0 d hu hs hv idx e c
  have hst1 := start_rows1 d hs idx (ix2 e c)
  have hwi0 := window_rows0 d hi (ix2 e c)
  have hwi1 := window_rows1 d hu hi e c
  have hc := c.isLt
  unfold ScatterDims.resultIdx? tgtW
  by_cases hx : 0 ≤ (idx (ix2 e 0)).toInt ∧ (idx (ix2 e 0)).toInt < (N : Int)
  · have hall : ∀ a : Fin 2, 0 ≤ d.start (ix2 e c) idx a + d.window (ix2 e c) a ∧
        d.start (ix2 e c) idx a + d.window (ix2 e c) a < (⟨2, ![N, H]⟩ : Shape).size a := by
      refine Fin.forall_fin_two.2 ⟨?_, ?_⟩
      · rw [hst0, hwi0]
        show 0 ≤ (idx (ix2 e 0)).toInt + ((0 : Nat) : Int) ∧ (idx (ix2 e 0)).toInt + ((0 : Nat) : Int) < (N : Int)
        omega
      · rw [hst1, hwi1]
        show 0 ≤ (0 : Int) + (c.val : Int) ∧ (0 : Int) + (c.val : Int) < (H : Int)
        omega
    rw [dif_pos hall, dif_pos hx]
    show some _ = some _
    congr 1
    have hpt : ∀ a : Fin 2,
        (⟨(d.start (ix2 e c) idx a + d.window (ix2 e c) a).toNat, by have := hall a; omega⟩ :
          Fin ((⟨2, ![N, H]⟩ : Shape).size a))
        = (ix2 (⟨(idx (ix2 e 0)).toInt.toNat, by omega⟩ : Fin N) c : (⟨2, ![N, H]⟩ : Shape).Idx) a := by
      refine Fin.forall_fin_two.2 ⟨?_, ?_⟩
      · apply Fin.ext
        show (d.start (ix2 e c) idx 0 + d.window (ix2 e c) 0).toNat = (idx (ix2 e 0)).toInt.toNat
        rw [hst0, hwi0]
        simp
      · apply Fin.ext
        show (d.start (ix2 e c) idx 1 + d.window (ix2 e c) 1).toNat = c.val
        rw [hst1, hwi1]
        simp
    funext a
    exact hpt a
  · have hnall : ¬ ∀ a : Fin 2, 0 ≤ d.start (ix2 e c) idx a + d.window (ix2 e c) a ∧
        d.start (ix2 e c) idx a + d.window (ix2 e c) a < (⟨2, ![N, H]⟩ : Shape).size a := fun hall => by
      have h0 := hall 0
      rw [hst0, hwi0] at h0
      apply hx
      have h0' : 0 ≤ (idx (ix2 e 0)).toInt + ((0 : Nat) : Int) ∧ (idx (ix2 e 0)).toInt + ((0 : Nat) : Int) < (N : Int) := h0
      omega
    rw [dif_neg hnall, dif_neg hx]
    rfl

end Rows

/-- The scatter-add of rows into a matrix, at (i, j): the operand there plus column `j` of the update rows whose
    index word names row `i`. -/
theorem scatterAdd_rows_apply {N H E w : Nat}
    (d : ScatterDims ⟨2, ![N, H]⟩ ⟨2, ![E, 1]⟩ ⟨2, ![E, H]⟩)
    (hu : d.updateWindowDims = [1]) (hi : d.insertedWindowDims = [0])
    (hs : d.scatterDimsToOperandDims = [0]) (hv : d.indexVectorDim = 1)
    (x : (⟨2, ![N, H]⟩ : Shape).Idx → EReal) (idx : IVec ⟨2, ![E, 1]⟩ w) (upd : (⟨2, ![E, H]⟩ : Shape).Idx → EReal)
    (i : Fin N) (j : Fin H) :
    Ideal.hostScatterAdd d x idx upd (ix2 i j)
      = x (ix2 i j) + ∑ e ∈ Finset.univ.filter (fun e : Fin E => tgtW N (idx (ix2 e 0)) = some i), upd (ix2 e j) := by
  show x (ix2 i j) + ∑ u ∈ Finset.univ.filter (fun u => d.resultIdx? u idx = some (ix2 i j)), upd u = _
  congr 1
  rw [Finset.sum_filter, Finset.sum_filter, sum_idx2]
  refine Finset.sum_congr rfl fun e _ => ?_
  have hiff : ∀ c : Fin H, d.resultIdx? (ix2 e c) idx = some (ix2 i j) ↔ (tgtW N (idx (ix2 e 0)) = some i ∧ c = j) := by
    intro c
    rw [resultIdx?_rows d hu hi hs hv idx e c]
    cases tgtW N (idx (ix2 e 0)) with
    | none => simp
    | some r =>
      simp only [Option.map_some, Option.some.injEq]
      constructor
      · intro h'
        exact ⟨congrFun h' 0, congrFun h' 1⟩
      · rintro ⟨h1, h2⟩
        rw [h1, h2]
  by_cases hq : tgtW N (idx (ix2 e 0)) = some i
  · rw [if_pos hq]
    rw [Finset.sum_eq_single j]
    · rw [if_pos ((hiff j).2 ⟨hq, rfl⟩)]
    · intro c _ hcj
      rw [if_neg (fun h => hcj ((hiff c).1 h).2)]
    · intro hj
      exact absurd (Finset.mem_univ j) hj
  · rw [if_neg hq]
    refine Finset.sum_eq_zero fun c _ => ?_
    rw [if_neg (fun h => hq ((hiff c).1 h).1)]

/-! ## The row gather -/

section GatherRows

variable {N H E w : Nat} (d : GatherDims ⟨2, ![N, H]⟩ ⟨2, ![E, 1]⟩ ⟨2, ![E, H]⟩)

/-- The operand's kept axis is the column axis (the row axis is collapsed). -/
theorem gather_sKept_rows (hcoll : d.collapsedSliceDims = [0]) (hob : d.operandBatchingDims = []) : d.sKept = [1] := by
  show (List.finRange 2).filter (fun a => a ∉ d.collapsedSliceDims ++ d.operandBatchingDims) = [1]
  rw [hcoll, hob]
  exact (by decide : (List.finRange 2).filter (fun a : Fin 2 => a ∉ [(0 : Fin 2)] ++ []) = [(1 : Fin 2)])

/-- The result's batch axis is axis 0 (axis 1 is the offset axis). -/
theorem gather_batchDims_rows (hoff : d.offsetDims = [1]) : d.batchDims = [0] := by
  show (List.finRange 2).filter (fun a => a ∉ d.offsetDims) = [0]
  rw [hoff]
  exact (by decide : (List.finRange 2).filter (fun a : Fin 2 => a ∉ [(1 : Fin 2)]) = [(0 : Fin 2)])

/-- Result index (e, j) reads its start index at row `e` of the column of index words. -/
theorem gather_siIdx_rows (hoff : d.offsetDims = [1]) (hsim : d.startIndexMap = [0]) (hivd : d.indexVectorDim = 1)
    (e : Fin E) (j : Fin H) (c : Fin d.startIndexMap.length) :
    d.siIdx (ix2 e j) c = ix2 e 0 := by
  funext b
  match b with
  | ⟨0, _⟩ =>
    unfold GatherDims.siIdx
    rw [dif_neg (by rw [hivd]; simp)]
    unfold GatherDims.siCoord
    apply Fin.ext
    simp only [Fin.val_cast]
    refine ix2_val_axis0 e j _ ?_
    have hall : ∀ X ∈ d.batchDims, X = 0 := by
      rw [gather_batchDims_rows d hoff]; intro X hX; exact List.mem_singleton.mp hX
    exact hall _ (List.getElem_mem _)
  | ⟨1, _⟩ =>
    unfold GatherDims.siIdx
    rw [dif_pos (by rw [hivd])]
    apply Fin.ext
    show c.val = 0
    have hlen : d.startIndexMap.length = 1 := by rw [hsim]; rfl
    have hc := c.isLt
    omega

/-- The start of the slice on the row axis: the e-th index word read signed and clamped into [0, N − 1]. -/
theorem gather_start_rows0 (hoff : d.offsetDims = [1]) (hcoll : d.collapsedSliceDims = [0])
    (hsim : d.startIndexMap = [0]) (hivd : d.indexVectorDim = 1)
    (idx : IVec ⟨2, ![E, 1]⟩ w) (e : Fin E) (j : Fin H) :
    d.start (ix2 e j) idx 0 = min (idx (ix2 e 0)).toInt.toNat (N - 1) := by
  have hm : (0 : Fin 2) ∈ d.startIndexMap := by rw [hsim]; exact List.mem_singleton.mpr rfl
  have hsl : d.sliceSizes 0 = 1 := d.slice_collapsed 0 (by rw [hcoll]; exact List.mem_singleton.mpr rfl)
  unfold GatherDims.start
  rw [dif_pos hm, gather_siIdx_rows d hoff hsim hivd e j]
  show min (idx (ix2 e 0)).toInt.toNat (N - d.sliceSizes 0) = _
  rw [hsl]

/-- The start index names no column: the slice starts at column 0. -/
theorem gather_start_rows1 (hsim : d.startIndexMap = [0])
    (idx : IVec ⟨2, ![E, 1]⟩ w) (y : (⟨2, ![E, H]⟩ : Shape).Idx) : d.start y idx 1 = 0 := by
  have hm : (1 : Fin 2) ∉ d.startIndexMap := by
    rw [hsim]; exact (by decide : (1 : Fin 2) ∉ [(0 : Fin 2)])
  unfold GatherDims.start
  rw [dif_neg hm]

/-- The offset coordinate on the column axis is the result's column. -/
theorem gather_offCoord_rows1 (hoff : d.offsetDims = [1]) (hcoll : d.collapsedSliceDims = [0])
    (hob : d.operandBatchingDims = []) (e : Fin E) (j : Fin H) :
    d.offCoord (ix2 e j) 1 = j.val := by
  have hk : (1 : Fin 2) ∈ d.sKept := by rw [gather_sKept_rows d hcoll hob]; exact List.mem_singleton.mpr rfl
  unfold GatherDims.offCoord
  rw [dif_pos hk]
  refine ix2_val_axis1 e j _ ?_
  have hall : ∀ X ∈ d.offsetDims, X = 1 := by
    rw [hoff]; intro X hX; exact List.mem_singleton.mp hX
  exact hall _ (List.getElem_mem _)

end GatherRows

/-- The gather of rows of a matrix, at (e, j): column `j` of the row the e-th index word names. -/
theorem gather_rows_apply {α : Type} {N H E w : Nat} (hN : 0 < N)
    (d : GatherDims ⟨2, ![N, H]⟩ ⟨2, ![E, 1]⟩ ⟨2, ![E, H]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, H])
    (x : (⟨2, ![N, H]⟩ : Shape).Idx → α) (idx : IVec ⟨2, ![E, 1]⟩ w) (e : Fin E) (j : Fin H) :
    Host.gather d x idx (ix2 e j) = x (ix2 (rowW N hN (idx (ix2 e 0))) j) := by
  unfold Host.gather
  congr 1
  have hb : ∀ a : Fin 2, a ∉ d.operandBatchingDims := fun a => by rw [hob]; exact List.not_mem_nil
  have hk0 : (0 : Fin 2) ∉ d.sKept := by
    rw [gather_sKept_rows d hcoll hob]; exact (by decide : (0 : Fin 2) ∉ [(1 : Fin 2)])
  have hpt : ∀ a : Fin 2, d.operandIdx (ix2 e j) idx a
      = (ix2 (rowW N hN (idx (ix2 e 0))) j : (⟨2, ![N, H]⟩ : Shape).Idx) a := by
    refine Fin.forall_fin_two.2 ⟨?_, ?_⟩
    · apply Fin.ext
      show d.start (ix2 e j) idx 0 + d.batchCoord (ix2 e j) 0 + d.offCoord (ix2 e j) 0
        = min (idx (ix2 e 0)).toInt.toNat (N - 1)
      rw [GatherDims.batchCoord_eq_zero _ _ _ (hb 0), GatherDims.offCoord_eq_zero _ _ _ hk0,
        gather_start_rows0 d hoff hcoll hsim hivd idx e j]
      simp only [Nat.add_zero]
    · apply Fin.ext
      show d.start (ix2 e j) idx 1 + d.batchCoord (ix2 e j) 1 + d.offCoord (ix2 e j) 1 = j.val
      rw [GatherDims.batchCoord_eq_zero _ _ _ (hb 1), gather_offCoord_rows1 d hoff hcoll hob e j,
        gather_start_rows1 d hsim idx (ix2 e j)]
      omega
  funext a
  exact hpt a

/-- The gather of entries of a vector, at `e`: the entry the e-th index word names (the library's take, restated
    with `rowW`). -/
theorem gather_vec_apply {α : Type} {N E w : Nat} (hN : 0 < N)
    (d : GatherDims ⟨1, ![N]⟩ ⟨2, ![E, 1]⟩ ⟨1, ![E]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![E, 1]⟩ w) (e : Fin E) :
    Host.gather d x idx (ix1 e) = x (ix1 (rowW N hN (idx (ix2 e 0)))) := by
  have h := StableHlo.Predicate.gather_take d hcoll hob hsim hivd x idx e hN
  have h1 : (Shape.Idx.ofFin e : (⟨1, ![E]⟩ : Shape).Idx) = ix1 e := by
    funext a
    match a with
    | ⟨0, _⟩ => rfl
  have h2 : (StableHlo.Predicate.ixP e : (⟨2, ![E, 1]⟩ : Shape).Idx) = ix2 e 0 := by
    funext a
    match a with
    | ⟨0, _⟩ => rfl
    | ⟨1, _⟩ => rfl
  rw [h1] at h
  rw [h]
  congr 1
  funext a
  match a with
  | ⟨0, _⟩ =>
    apply Fin.ext
    show min (idx (StableHlo.Predicate.ixP e)).toInt.toNat (N - 1) = min (idx (ix2 e 0)).toInt.toNat (N - 1)
    rw [h2]

end Cert.ScatterGather

end
-- ==== Proof.Spec.lean ====
/- The score of an edge list against a node table: the function both programs compute.

   A node table z of 100000 rows of 128 features, and two rows of 2000000 index words: the source and the
   destination of each edge. An index word names a row of the table the way array indexing reads it: a negative
   word counts from the table's end (100000 is added once), and the result is then read signed and clamped into
   the table. The feature row of an edge is the product, feature by feature, of its two endpoint rows; the score
   is a two-layer perceptron of that row: 128 hidden units, each the positive part of an affine form of the
   features, then one affine form of the hidden units. -/
import Idealize.ShloMosaic.PureOps.Ideal
import Idealize.ShloMosaic.Lib.ValueIdx
import proofs.«167652_j62191126446520_1_alg».proof.Proof.LibScatterGather

noncomputable section

open scoped BigOperators

namespace Cert.EdgeScore

open Idealize.ShloMosaic Idealize.ShloMosaic.ValueIdx

/-- The zero the hidden units are cut off at, as the word both programs print. -/
abbrev zero : EReal := Ideal.ofBits .f32 0x00000000#32

/-- An index word with a negative value moved up by the table's height. -/
def wrap (w : BitVec 32) : BitVec 32 :=
  Scalar.select (IntOp.cmpi .slt w 0#32) (IntOp.addi w 100000#32) w

/-- The row of the table an index word names. -/
def nodeRow (w : BitVec 32) : Fin 100000 := Cert.ScatterGather.rowW 100000 (by decide) (wrap w)

/-- The perceptron on one feature row f: sum over hidden units h of
    max (sum over features d of f d · W1 (d, h) + b1 h, 0) · W2 (h, 0), plus b2 0. -/
def mlp (f : Fin 128 → EReal) (W1 : FVec Ideal ⟨2, ![128, 128]⟩ .f32) (b1 : FVec Ideal ⟨1, ![128]⟩ .f32)
    (W2 : FVec Ideal ⟨2, ![128, 1]⟩ .f32) (b2 : FVec Ideal ⟨1, ![1]⟩ .f32) : EReal :=
  (∑ h : Fin 128, max ((∑ d : Fin 128, f d * W1 (ix2 d h)) + b1 (ix1 h)) zero * W2 (ix2 h (0 : Fin 1)))
    + b2 (ix1 (0 : Fin 1))

/-- The feature row of the edge whose endpoints the index words s and t name. -/
def edgeRow (z : FVec Ideal ⟨2, ![100000, 128]⟩ .f32) (s t : BitVec 32) : Fin 128 → EReal :=
  fun d => z (ix2 (nodeRow s) d) * z (ix2 (nodeRow t) d)

/-- The score of edge e. -/
def scoreAt (z : FVec Ideal ⟨2, ![100000, 128]⟩ .f32) (idx : IVec ⟨2, ![2, 2000000]⟩ 32)
    (W1 : FVec Ideal ⟨2, ![128, 128]⟩ .f32) (b1 : FVec Ideal ⟨1, ![128]⟩ .f32)
    (W2 : FVec Ideal ⟨2, ![128, 1]⟩ .f32) (b2 : FVec Ideal ⟨1, ![1]⟩ .f32) (e : Fin 2000000) : EReal :=
  mlp (edgeRow z (idx (ix2 (0 : Fin 2) e)) (idx (ix2 (1 : Fin 2) e))) W1 b1 W2 b2

/-- All the scores, one per edge. -/
def score (z : FVec Ideal ⟨2, ![100000, 128]⟩ .f32) (idx : IVec ⟨2, ![2, 2000000]⟩ 32)
    (W1 : FVec Ideal ⟨2, ![128, 128]⟩ .f32) (b1 : FVec Ideal ⟨1, ![128]⟩ .f32)
    (W2 : FVec Ideal ⟨2, ![128, 1]⟩ .f32) (b2 : FVec Ideal ⟨1, ![1]⟩ .f32) : FVec Ideal ⟨1, ![2000000]⟩ .f32 :=
  fun i => scoreAt z idx W1 b1 W2 b2 (i 0)

end Cert.EdgeScore

end
-- ==== Proof.LibDotPlain.lean ====
/- A matrix product read at one index, for dimension numbers with no batch axis and one contracted axis.

   Two arrangements: rows times columns (the left operand's second axis against the right operand's first), and
   the transposed-left product (both operands' first axes contracted: the left operand's columns index the result's
   rows). In both the contraction index is one coordinate, and the sum over it is a sum over that coordinate. The
   kernel's product into a zero accumulator and the host's product are that same sum. -/
import Idealize.ShloMosaic.PureOps.Ideal
import Idealize.ShloMosaic.PureOps.Ideal.Laws
import Idealize.ShloMosaic.Lib.ValueIdx

noncomputable section

namespace Cert.DotPlain

open Idealize.ShloMosaic Idealize.ShloMosaic.ValueIdx
open scoped BigOperators

/-! ## One contracted axis, no batch axis: the contraction shape and the operand coordinates -/

/-- A list that is a singleton has its one element at position 0. -/
theorem getElem_zero_of_eq_singleton {α : Type} {l : List α} {c : α} (h : l = [c]) (hp : 0 < l.length) : l[0] = c := by
  subst h; rfl

/-- With one contracted axis the contraction shape has one axis. -/
theorem contr_rank_one {sl sr so : Shape} (d : DotDims sl sr so) {c : Fin sl.rank} (hlc : d.lhsContracting = [c]) :
    d.contr.rank = 1 := by
  rw [d.rank_contr, hlc]; rfl

/-- That one axis has the extent of the left operand's contracted axis. -/
theorem contr_size_zero {sl sr so : Shape} (d : DotDims sl sr so) {c : Fin sl.rank} (hlc : d.lhsContracting = [c]) :
    d.contr.size ⟨0, by rw [contr_rank_one d hlc]; exact Nat.one_pos⟩ = sl.size c := by
  have hp : 0 < d.lhsContracting.length := by rw [hlc]; exact Nat.one_pos
  exact (d.size_contr 0 hp).trans (congrArg sl.size (getElem_zero_of_eq_singleton hlc hp))

/-- Moving along one index changes nothing but the position read. -/
private theorem val_congr {s : Shape} (j : s.Idx) (p q : Nat) (hp : p < s.rank) (hq : q < s.rank) (h : p = q) :
    (j ⟨p, hp⟩).val = (j ⟨q, hq⟩).val := by
  subst h; rfl

/-- No batch axis and one free axis on the left: on that axis the left operand reads the result's first coordinate. -/
theorem lhsIdx_val_nonContr {sl sr so : Shape} (d : DotDims sl sr so) (hlb : d.lhsBatch = [])
    {a : Fin sl.rank} (hln : d.lhsNonContracting = [a]) (j : so.Idx) (k : d.contr.Idx) (h0 : 0 < so.rank) :
    (d.lhsIdx j k a).val = (j ⟨0, h0⟩).val := by
  have hb : a ∉ d.lhsBatch := by rw [hlb]; exact List.not_mem_nil
  have hn : a ∈ d.lhsNonContracting := by rw [hln]; exact List.mem_singleton.mpr rfl
  unfold DotDims.lhsIdx
  rw [dif_neg hb, dif_pos hn]
  simp only [Fin.val_cast]
  exact val_congr j _ _ _ _ (by simp [hlb, hln])

/-- No batch axis and one free axis on each side: on its free axis the right operand reads the result's second
    coordinate (the result lists the left operand's free axis first). -/
theorem rhsIdx_val_nonContr {sl sr so : Shape} (d : DotDims sl sr so) (hlb : d.lhsBatch = []) (hrb : d.rhsBatch = [])
    {al : Fin sl.rank} (hln : d.lhsNonContracting = [al]) {a : Fin sr.rank} (hrn : d.rhsNonContracting = [a])
    (j : so.Idx) (k : d.contr.Idx) (h1 : 1 < so.rank) :
    (d.rhsIdx j k a).val = (j ⟨1, h1⟩).val := by
  have hb : a ∉ d.rhsBatch := by rw [hrb]; exact List.not_mem_nil
  have hn : a ∈ d.rhsNonContracting := by rw [hrn]; exact List.mem_singleton.mpr rfl
  unfold DotDims.rhsIdx
  rw [dif_neg hb, dif_pos hn]
  simp only [Fin.val_cast]
  exact val_congr j _ _ _ _ (by simp [hlb, hln, hrn])

/-! ## The contraction sum as a sum over the contracted coordinate -/

/-- Rows times columns: the contraction sum at (a, b) is the sum over k of l (a, k) · r (k, b). -/
theorem sum_rows_cols {M K N : Nat} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (l : (⟨2, ![M, K]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 a k) * r (ix2 k b) := by
  have hr : d.contr.rank = 1 := contr_rank_one d hlc
  have hs : d.contr.size ⟨0, by omega⟩ = K := contr_size_zero d hlc
  -- re-index the sum by the one contraction coordinate, then identify each operand's index axis by axis
  rw [← Equiv.sum_comp (contrEquiv1 d K hr hs).symm]
  refine Finset.sum_congr rfl fun k _ => ?_
  have hl : d.lhsIdx (ix2 a b) ((contrEquiv1 d K hr hs).symm k) = ix2 a k := by
    funext ax
    match ax with
    | ⟨0, _⟩ => exact Fin.ext (lhsIdx_val_nonContr d hlb hln _ _ Nat.zero_lt_two)
    | ⟨1, _⟩ => exact Fin.ext ((d.lhsIdx_val_of_single hlc _ _).trans (contrEquiv1_symm_val d K hr hs k))
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-- Transposed-left product: the contraction sum at (a, b) is the sum over k of l (k, a) · r (k, b). -/
theorem sum_cols_cols {M K N : Nat} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (l : (⟨2, ![K, M]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 k a) * r (ix2 k b) := by
  have hr : d.contr.rank = 1 := contr_rank_one d hlc
  have hs : d.contr.size ⟨0, by omega⟩ = K := contr_size_zero d hlc
  rw [← Equiv.sum_comp (contrEquiv1 d K hr hs).symm]
  refine Finset.sum_congr rfl fun k _ => ?_
  -- the left operand's first axis is the contracted one, its second axis carries the result's row
  have hl : d.lhsIdx (ix2 a b) ((contrEquiv1 d K hr hs).symm k) = ix2 k a := by
    funext ax
    match ax with
    | ⟨0, _⟩ => exact Fin.ext ((d.lhsIdx_val_of_single hlc _ _).trans (contrEquiv1_symm_val d K hr hs k))
    | ⟨1, _⟩ => exact Fin.ext (lhsIdx_val_nonContr d hlb hln _ _ Nat.zero_lt_two)
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-! ## The two products at an index -/

/-- The host's product, rows times columns, at an index. -/
theorem dotGeneral_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (sum_rows_cols d hlb hrb hlc hrc hln hrn l r a b)

/-- The kernel's product into the zero accumulator, rows times columns, at an index. -/
theorem matmul_zero_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (sum_rows_cols d hlb hrb hlc hrc hln hrn l r a b)

/-- The kernel's transposed-left product into the zero accumulator, at an index. -/
theorem matmul_zero_cols_cols {M K N : Nat} {φ₁ φ₂ : FTy} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (prec : Option ContractPrecision)
    (l : FVec Ideal ⟨2, ![K, M]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 k a) * r (ix2 k b) :=
  (Ideal.matmul_constant_zero_apply d prec l r (ix2 a b)).trans (sum_cols_cols d hlb hrb hlc hrc hln hrn l r a b)

end Cert.DotPlain

end
-- ==== Proof.LibKeepdims.lean ====
/- Layout operations and one-axis reductions of small ranks read at an index written by coordinates.

   What a row-wise kernel with `keepdims` sums meets: a column [a] viewed as [a, 1]; a matrix [a, c] viewed as
   [a, 1, c]; the broadcasts [a, 1, c] → [a, b, c] and [a, 1] → [a, b]; a sum or a maximum over the last axis of a
   rank-3 or rank-2 vector, and a sum over the first axis of a rank-2 vector, each as a sum or fold over that axis's
   coordinate; the host's reductions over the last axis of a rank-2 array likewise. Every shape fact is a variable,
   so a lemma applies whatever proof term a program carries for it. -/
import Idealize.ShloMosaic.Lib.Pipeline.Value
import Idealize.ShloMosaic.Lib.ValueIdx
import Idealize.ShloMosaic.PureOps.Ideal.Laws

noncomputable section

open scoped BigOperators

namespace Cert.Keepdims

open Idealize.ShloMosaic Idealize.ShloMosaic.ValueIdx

variable {α : Type}

/-- A column [a] viewed as [a, 1] reads, at (r, u), the column at r. -/
theorem shapeCast_a_a1_apply {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A matrix [a, c] viewed as [a, 1, c] reads, at (r, u, q), the matrix at (r, q). -/
theorem shapeCast_ac_a1c_apply {a c : ℕ} (x : (⟨2, ![a, c]⟩ : Shape).Idx → α)
    (h : (⟨2, ![a, c]⟩ : Shape).ShapeCasts ⟨3, ![a, 1, c]⟩) (r : Fin a) (u : Fin 1) (q : Fin c) :
    shapeCast ⟨3, ![a, 1, c]⟩ x h (ix3 r u q) = x (ix2 r q) :=
  shapeCast_apply x h _ _ (by
    have hu : u.val = 0 := by omega
    rw [Shape.rowMajor_val_three, Shape.rowMajor_val_two]
    show r.val * c + q.val = (r.val * 1 + u.val) * c + q.val
    rw [hu, Nat.mul_one, Nat.add_zero])

/-- [a, 1, c] broadcast along its middle axis reads, at (r, k, q), the operand at (r, 0, q). -/
theorem broadcastTo_a1c_abc_apply {a b c : ℕ} (x : (⟨3, ![a, 1, c]⟩ : Shape).Idx → α)
    (h : (⟨3, ![a, 1, c]⟩ : Shape).Broadcasts ⟨3, ![a, b, c]⟩) (r : Fin a) (k : Fin b) (q : Fin c) :
    broadcastTo ⟨3, ![a, b, c]⟩ x h (ix3 r k q) = x (ix3 r (0 : Fin 1) q) :=
  broadcastTo_apply x h _ _ (fun ax => match ax with
    | ⟨0, _⟩ => by
      have := r.isLt
      show r.val = if a = 1 then 0 else r.val
      split <;> omega
    | ⟨1, _⟩ => by
      show 0 = if (1 : ℕ) = 1 then 0 else k.val
      rw [if_pos rfl]
    | ⟨2, _⟩ => by
      have := q.isLt
      show q.val = if c = 1 then 0 else q.val
      split <;> omega)

/-- A column [a, 1] broadcast along its unit axis reads, at (r, k), the column at (r, 0). -/
theorem broadcastTo_a1_ab_apply {a b : ℕ} (x : (⟨2, ![a, 1]⟩ : Shape).Idx → α)
    (h : (⟨2, ![a, 1]⟩ : Shape).Broadcasts ⟨2, ![a, b]⟩) (r : Fin a) (k : Fin b) :
    broadcastTo ⟨2, ![a, b]⟩ x h (ix2 r k) = x (ix2 r (0 : Fin 1)) :=
  broadcastTo_apply x h _ _ (fun ax => match ax with
    | ⟨0, _⟩ => by
      have := r.isLt
      show r.val = if a = 1 then 0 else r.val
      split <;> omega
    | ⟨1, _⟩ => by
      show 0 = if (1 : ℕ) = 1 then 0 else k.val
      rw [if_pos rfl])

/-- The index over (r, k) with q inserted on the last of three axes is (r, k, q). -/
theorem lift_last3 {a b c : ℕ} (h : (⟨3, ![a, b, c]⟩ : Shape).Reduces [2] ⟨2, ![a, b]⟩) (r : Fin a) (k : Fin b) (q : Fin c) :
    h.lift (ix2 r k) q = ix3 r k q :=
  funext fun ax => Fin.ext (by match ax with | ⟨0, _⟩ => rfl | ⟨1, _⟩ => rfl | ⟨2, _⟩ => rfl)

/-- The index over (r) with k inserted on the last of two axes is (r, k). -/
theorem lift_last2 {a b : ℕ} (h : (⟨2, ![a, b]⟩ : Shape).Reduces [1] ⟨1, ![a]⟩) (r : Fin a) (k : Fin b) :
    h.lift (ix1 r) k = ix2 r k :=
  funext fun ax => Fin.ext (by match ax with | ⟨0, _⟩ => rfl | ⟨1, _⟩ => rfl)

/-- The index over (q) with r inserted on the first of two axes is (r, q). -/
theorem lift_first2 {a b : ℕ} (h : (⟨2, ![a, b]⟩ : Shape).Reduces [0] ⟨1, ![b]⟩) (r : Fin a) (q : Fin b) :
    h.lift (ix1 q) r = ix2 r q :=
  funext fun ax => Fin.ext (by match ax with | ⟨0, _⟩ => rfl | ⟨1, _⟩ => rfl)

variable {φ : FTy}

/-- A sum over the last of three axes, at (r, k): the sum over q of the source at (r, k, q). -/
theorem sum_last3_apply {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (r : Fin a) (k : Fin b) :
    multiReduction .add [2] ⟨2, ![a, b]⟩ src acc h hφ hacc (ix2 r k) = ∑ q : Fin c, src (ix3 r k q) :=
  (Ideal.multiReduction_add_single src acc h hφ hacc (ix2 r k)).trans
    (Finset.sum_congr rfl fun q _ => congrArg src (lift_last3 h r k q))

/-- A sum over the last of two axes, at (r): the sum over k of the source at (r, k). -/
theorem sum_last2_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_last2 h r k))

/-- A sum over the first of two axes, at (q): the sum over r of the source at (r, q). -/
theorem sum_first2_apply {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ src acc h hφ hacc (ix1 q) = ∑ r : Fin a, src (ix2 r q) :=
  (Ideal.multiReduction_add_single src acc h hφ hacc (ix1 q)).trans
    (Finset.sum_congr rfl fun r _ => congrArg src (lift_first2 h r q))

/-- A maximum over the last of two axes, at (r): the fold of max, from the accumulator's value, over k of the
    source at (r, k). -/
theorem max_last2_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) :=
  (Ideal.multiReduction_maximumf_single src acc h hφ hacc (ix1 r)).trans
    (congrArg (fun g => (Finset.univ : Finset (Fin b)).fold max (Ideal.ofBits φ acc) g)
      (funext fun k => congrArg src (lift_last2 h r k)))

/-- The host's maximum over the last of two axes, at (r): the same fold, from the initial value's element. -/
theorem host_max_last2_apply {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := φ)) x init h' hu (ix1 r)
      = (Finset.univ : Finset (Fin b)).fold max (init (Shape.Idx.first hu)) (fun k => x (ix2 r k)) :=
  (Host.reduce_eq_fold_single (FloatOps.maximumf (F := Ideal) (φ := φ)) x init h' h hu (ix1 r)).trans
    (congrArg (fun g => (Finset.univ : Finset (Fin b)).fold max (init (Shape.Idx.first hu)) g)
      (funext fun k => congrArg x (lift_last2 h r k)))

end Cert.Keepdims

end
-- ==== Proof.KernelBody.lean ====
/- One edge block through the perceptron: what the kernel body stores at one row.

   The body multiplies its two blocks of gathered node rows entry by entry, multiplies the 4096 product rows by the
   first layer's weights, adds that layer's bias along every row, cuts each entry off below at zero, multiplies by the
   second layer's one column laid along every row, sums each row, and adds the second layer's bias. Row p of the stored
   column is therefore the perceptron of the product of row p of the two blocks. -/
import proofs.«167652_j62191126446520_1_alg».proof.Proof.Gen.KernelIdeal.Skeleton
import proofs.«167652_j62191126446520_1_alg».proof.Proof.Spec
import proofs.«167652_j62191126446520_1_alg».proof.Proof.LibDotPlain
import proofs.«167652_j62191126446520_1_alg».proof.Proof.LibKeepdims
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.EdgeScore

/-- A column [a, 1] viewed as [a] reads, at r, the column at (r, 0). -/
theorem shapeCast_a1_a_apply {α : Type} {a : ℕ} (x : (⟨2, ![a, 1]⟩ : Shape).Idx → α)
    (h : (⟨2, ![a, 1]⟩ : Shape).ShapeCasts ⟨1, ![a]⟩) (r : Fin a) :
    shapeCast ⟨1, ![a]⟩ x h (ix1 r) = x (ix2 r (0 : Fin 1)) :=
  shapeCast_apply x h _ _ (by
    rw [Shape.rowMajor_val_two, Shape.rowMajor_val_one]
    show r.val * 1 + 0 = r.val
    omega)

/-- The one entry of a vector of length one, taken out at position 0. -/
theorem extractAt_one {α : Type} (x : (⟨1, ![1]⟩ : Shape).Idx → α) (h : ∀ a, (![0] : Fin 1 → ℕ) a < (⟨1, ![1]⟩ : Shape).size a) :
    extractAt ![0] x h = x (ix1 (0 : Fin 1)) :=
  congrArg x (funext fun a => Fin.ext (by match a with | ⟨0, _⟩ => rfl))

/-- The sum along each of the 4096 rows of 128 entries, from the zero word, at row p: the sum over the row's entries. -/
theorem rowSum_apply (src : FVec Ideal S4096x128 .f32) (h : S4096x128.Reduces [1] S4096) (hφ : FKind.Formats FTy.f32)
    (hacc : (0x00000000#32 : BitVec 32) = 0x00000000#32) (p : Fin 4096) :
    multiReduction .add [1] S4096 src 0x00000000#32 h hφ hacc (ix1 p) = ∑ k : Fin 128, src (ix2 p k) :=
  (Ideal.multiReduction_add_single src 0x00000000#32 h hφ hacc (ix1 p)).trans
    (Finset.sum_congr rfl fun k _ => congrArg src (Cert.Keepdims.lift_last2 h p k))

/-- Row p of what the body stores: the perceptron of the product of the two feature blocks' rows p. -/
theorem pay_apply (x0 x1 : Vec Ideal S4096x128 .bf16) (x2 : Vec Ideal S128x128 .bf16) (x3 : Vec Ideal S128 .f32)
    (x4 : Vec Ideal S128x1 .f32) (x5 : Vec Ideal S1 .f32) (p : Fin 4096) (u : Fin 1) :
    k0_pay1 (F := Ideal) x0 x1 x2 x3 x4 x5 (ix2 p u)
      = mlp (fun d => x0 (ix2 p d) * x1 (ix2 p d)) x2 x3 x4 x5 := by
  unfold k0_pay1 mlp
  dsimp only
  rw [addf_apply, broadcast_apply, extractAt_one, Cert.Keepdims.shapeCast_a_a1_apply]
  refine congrArg (· + x5 (ix1 (0 : Fin 1))) ((rowSum_apply _ _ _ _ p).trans (Finset.sum_congr rfl fun k _ => ?_))
  rw [mulf_apply, maximumf_apply, addf_apply, broadcast_apply,
    broadcastTo_1b_ab_apply, shapeCast_a_1a_apply, broadcastTo_1b_ab_apply, shapeCast_a_1a_apply, shapeCast_a1_a_apply]
  refine congrArg (fun s => max (s + x3 (ix1 k)) zero * x4 (ix2 k (0 : Fin 1)))
    ((Cert.DotPlain.matmul_zero_rows_cols dot_S4096x128_S128x128_S4096x128_1_0_0_1_n_n rfl rfl rfl rfl rfl rfl none _ _ p k).trans
      (Finset.sum_congr rfl fun d _ => ?_))
  rw [mulf_apply, shapeCast_self, shapeCast_self, shapeCast_self]

/-- The scores of all 2002944 padded edge slots as one column: slot i's is the perceptron of the product of row i of
    the two gathered arrays. -/
def slotScores (A B : FVec Ideal S2002944x128 .bf16) (W1 : FVec Ideal S128x128 .bf16) (b1 : FVec Ideal S128 .f32)
    (W2 : FVec Ideal S128x1 .f32) (b2 : FVec Ideal S1 .f32) : FVec Ideal S2002944x1 .f32 :=
  fun i => mlp (fun d => A (ix2 (⟨(i 0).val, idx2_lt0 i⟩ : Fin 2002944) d) * B (ix2 (⟨(i 0).val, idx2_lt0 i⟩ : Fin 2002944) d)) W1 b1 W2 b2

/-- What the body stores at row j of its block is slot i's score, when row j of each feature block is row i of the
    gathered array it was cut from (entry by entry, along equal columns) and the parameter blocks are the parameter arrays. -/
theorem pay_eq_slot (x0 x1 : Vec Ideal S4096x128 .bf16) (x2 : Vec Ideal S128x128 .bf16) (x3 : Vec Ideal S128 .f32)
    (x4 : Vec Ideal S128x1 .f32) (x5 : Vec Ideal S1 .f32)
    (A B : FVec Ideal S2002944x128 .bf16) (W1 : FVec Ideal S128x128 .bf16) (b1 : FVec Ideal S128 .f32)
    (W2 : FVec Ideal S128x1 .f32) (b2 : FVec Ideal S1 .f32) (j : S4096x1.Idx) (i : S2002944x1.Idx)
    (h0 : ∀ (y : S4096x128.Idx) (k : S2002944x128.Idx), (y 0).val = (j 0).val → (k 0).val = (i 0).val →
      (k 1).val = (y 1).val → x0 y = A k)
    (h1 : ∀ (y : S4096x128.Idx) (k : S2002944x128.Idx), (y 0).val = (j 0).val → (k 0).val = (i 0).val →
      (k 1).val = (y 1).val → x1 y = B k)
    (h2 : x2 = W1) (h3 : x3 = b1) (h4 : x4 = W2) (h5 : x5 = b2) :
    k0_pay1 (F := Ideal) x0 x1 x2 x3 x4 x5 j = slotScores A B W1 b1 W2 b2 i := by
  subst h2 h3 h4 h5
  obtain ⟨p, u, rfl⟩ : ∃ (p : Fin 4096) (u : Fin 1), j = ix2 p u := ⟨j 0, j 1, eq_ix2 j⟩
  rw [pay_apply]
  unfold slotScores
  exact congrArg (fun f => mlp f x2 x3 x4 x5) (funext fun d => by
    rw [h0 (ix2 p d) (ix2 (⟨(i 0).val, idx2_lt0 i⟩ : Fin 2002944) d) rfl rfl rfl,
      h1 (ix2 p d) (ix2 (⟨(i 0).val, idx2_lt0 i⟩ : Fin 2002944) d) rfl rfl rfl])

end Cert.KernelIdeal.Body

end
-- ==== Proof.KernelGrid.lean ====
/- The grid of the call: where each window's block lies at a grid point, and that the output's blocks tile its array.

   There are 489 grid points. At point t the two feature windows and the output window are at row block t (4096 rows
   each), and every parameter window is its whole array. So a slot of the output column lies in the block of the point
   whose number is the slot's row divided by 4096. -/
import proofs.«167652_j62191126446520_1_alg».proof.Proof.Gen.KernelIdeal.Frame
import Idealize.ShloMosaic.Lib.Pipeline.Value

set_option maxRecDepth 16384

noncomputable section

namespace Cert.KernelIdeal.GridValue

open Cert.KernelIdeal Cert.KernelIdeal.Gen Idealize.ShloMosaic Idealize.ShloMosaic.TcCoe
open Idealize.SL.Sem
open Idealize.ShloMosaic.Pipeline (Dat Cfg Window)

/-- The index maps over the grid: the two feature windows and the output window are at the point's own row block and at
    column block 0; every parameter window stays at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- A slot is in point t's block iff its row is in the block's range of 4096 rows. -/
theorem mem_blk (t : Fin cfg0.N) (i : S2002944x1.Idx) :
    i ∈ ((cfg0.win 6).blk t).view.set ↔ ∀ a : Fin 2, win0_6.index t a * S4096x1.size a ≤ (i a).val
      ∧ (i a).val < win0_6.index t a * S4096x1.size a + S4096x1.size a := by
  show i ∈ ((View.whole main_v22).slice (win0_6.rect t)).set ↔ _
  rw [View.set_slice_whole, Rect.mem_set_unit]
  exact Iff.rfl

/-- Every slot is in the block of the point whose number is the slot's row divided by 4096. -/
theorem cover (i : S2002944x1.Idx) : ∃ t : Fin cfg0.N, (cfg0.win 6).flush t = true ∧ i ∈ ((cfg0.win 6).blk t).view.set := by
  have hi0 : (i 0).val < 2002944 := (i 0).isLt
  have hi1 : (i 1).val < 1 := (i 1).isLt
  have hN : cfg0.N = 489 := N_0
  have ht : (i 0).val / 4096 < cfg0.N := by rw [hN]; omega
  obtain ⟨-, -, -, -, -, -, -, -, -, -, q0, q1⟩ := idx_facts ⟨(i 0).val / 4096, ht⟩
  have q0' : win0_6.index ⟨(i 0).val / 4096, ht⟩ (0 : Fin 2) = (i 0).val / 4096 := q0
  refine ⟨⟨(i 0).val / 4096, ht⟩, flush0_6 _, ?_⟩
  rw [mem_blk]
  intro a
  match a with
  | ⟨0, _⟩ =>
    show win0_6.index ⟨(i 0).val / 4096, ht⟩ (0 : Fin 2) * 4096 ≤ (i 0).val
      ∧ (i 0).val < win0_6.index ⟨(i 0).val / 4096, ht⟩ (0 : Fin 2) * 4096 + 4096
    omega
  | ⟨1, _⟩ =>
    show win0_6.index ⟨(i 0).val / 4096, ht⟩ (1 : Fin 2) * 1 ≤ (i 1).val
      ∧ (i 1).val < win0_6.index ⟨(i 0).val / 4096, ht⟩ (1 : Fin 2) * 1 + 1
    omega

end Cert.KernelIdeal.GridValue

end
-- ==== Proof.KernelArray.lean ====
/- From blocks to the array: after the call, the output array holds every padded edge slot's score.

   Grid point t reads block t of the two gathered arrays (4096 rows each, all 128 columns) and the whole of each parameter
   array, and writes back block t of the output column. What it writes is the body's stored value, which row by row is the
   slot's score; the 489 blocks tile the 2002944 slots, so the array after the call is the column of all slot scores. -/
import proofs.«167652_j62191126446520_1_alg».proof.Proof.Gen.KernelIdeal.Frame
import proofs.«167652_j62191126446520_1_alg».proof.Proof.KernelBody
import proofs.«167652_j62191126446520_1_alg».proof.Proof.KernelGrid
import Idealize.ShloMosaic.Lib.Pipeline.Value

set_option maxRecDepth 16384

noncomputable section

namespace Cert.KernelIdeal.ArrayValue

open Cert.KernelIdeal Cert.KernelIdeal.Gen Cert.KernelIdeal.Body Cert.KernelIdeal.GridValue
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

theorem origin2 : (![0, 0] : Fin 2 → Nat) = fun _ => 0 := funext fun a => by fin_cases a <;> rfl
theorem origin1 : (![0] : Fin 1 → Nat) = fun _ => 0 := funext fun a => by fin_cases a <;> rfl

/-- The column of all slot scores, of the arrays as the call finds them. -/
def scoresArr (c : Dev nD) : S2002944x1.Idx → Ideal .f32 :=
  slotScores (V m c main_v13) (V m c main_v20) (V m c main_v21) (V m c main_arg3) (V m c main_arg4) (V m c main_arg5)

/-- Row y of a feature window's block at point t is row 4096 t + y of its array, along the same column. -/
theorem featBlock0 (c : Dev nD) (t : Fin cfg0.N) (y : S4096x128.Idx) (k : S2002944x128.Idx)
    (h0 : (k 0).val = t.val * 4096 + (y 0).val) (h1 : (k 1).val = (y 1).val) :
    iblk m c 0 t y = V m c main_v13 k := by
  obtain ⟨e00, e01, -, -, -, -, -, -, -, -, -, -⟩ := idx_facts t
  show V m c main_v13 (((cfg0.win 0).blk t).view.emb y) = V m c main_v13 k
  refine congrArg (V m c main_v13) (funext fun a => Fin.ext ?_)
  match a with
  | ⟨0, _⟩ => show win0_0.index t (0 : Fin 2) * 4096 + 1 * (y 0).val = (k 0).val; omega
  | ⟨1, _⟩ => show win0_0.index t (1 : Fin 2) * 128 + 1 * (y 1).val = (k 1).val; omega

theorem featBlock1 (c : Dev nD) (t : Fin cfg0.N) (y : S4096x128.Idx) (k : S2002944x128.Idx)
    (h0 : (k 0).val = t.val * 4096 + (y 0).val) (h1 : (k 1).val = (y 1).val) :
    iblk m c 1 t y = V m c main_v20 k := by
  obtain ⟨-, -, e10, e11, -, -, -, -, -, -, -, -⟩ := idx_facts t
  show V m c main_v20 (((cfg0.win 1).blk t).view.emb y) = V m c main_v20 k
  refine congrArg (V m c main_v20) (funext fun a => Fin.ext ?_)
  match a with
  | ⟨0, _⟩ => show win0_1.index t (0 : Fin 2) * 4096 + 1 * (y 0).val = (k 0).val; omega
  | ⟨1, _⟩ => show win0_1.index t (1 : Fin 2) * 128 + 1 * (y 1).val = (k 1).val; omega

/-- Each parameter window's block is its whole array, at every point. -/
theorem paramBlock2 (c : Dev nD) (t : Fin cfg0.N) : iblk m c 2 t = V m c main_v21 := by
  obtain ⟨-, -, -, -, e20, e21, -, -, -, -, -, -⟩ := idx_facts t
  funext y
  show V m c main_v21 (((cfg0.win 2).blk t).view.emb y) = V m c main_v21 y
  refine congrArg (V m c main_v21) (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

theorem paramBlock3 (c : Dev nD) (t : Fin cfg0.N) : iblk m c 3 t = V m c main_arg3 := by
  obtain ⟨-, -, -, -, -, -, e30, -, -, -, -, -⟩ := idx_facts t
  funext y
  show V m c main_arg3 (((cfg0.win 3).blk t).view.emb y) = V m c main_arg3 y
  refine congrArg (V m c main_arg3) (funext fun a => Fin.ext ?_)
  match a with
  | ⟨0, _⟩ => show win0_3.index t (0 : Fin 1) * 128 + 1 * (y 0).val = (y 0).val; omega

theorem paramBlock4 (c : Dev nD) (t : Fin cfg0.N) : iblk m c 4 t = V m c main_arg4 := by
  obtain ⟨-, -, -, -, -, -, -, e40, e41, -, -, -⟩ := idx_facts t
  funext y
  show V m c main_arg4 (((cfg0.win 4).blk t).view.emb y) = V m c main_arg4 y
  refine congrArg (V m c main_arg4) (funext fun a => Fin.ext ?_)
  match a with
  | ⟨0, _⟩ => show win0_4.index t (0 : Fin 2) * 128 + 1 * (y 0).val = (y 0).val; omega
  | ⟨1, _⟩ => show win0_4.index t (1 : Fin 2) * 1 + 1 * (y 1).val = (y 1).val; omega

theorem paramBlock5 (c : Dev nD) (t : Fin cfg0.N) : iblk m c 5 t = V m c main_arg5 := by
  obtain ⟨-, -, -, -, -, -, -, -, -, e50, -, -⟩ := idx_facts t
  funext y
  show V m c main_arg5 (((cfg0.win 5).blk t).view.emb y) = V m c main_arg5 y
  refine congrArg (V m c main_arg5) (funext fun a => Fin.ext ?_)
  match a with
  | ⟨0, _⟩ => show win0_5.index t (0 : Fin 1) * 1 + 1 * (y 0).val = (y 0).val; omega

/-- What point t writes back is block t of the column of slot scores. -/
theorem flushed_eq (c : Dev nD) (t : Fin cfg0.N) :
    (dats m 0 c).flushed 6 t = ((cfg0.win 6).blk t).view.read (Elt Ideal) (scoresArr m c) := by
  show (cfg0.win 6).cut (grid0.coords t) ((dats m 0 c).after 6 t) = _
  rw [after0_6]
  unfold out0_6
  rw [View.canon_unit_zero origin2]
  simp only [View.ld_unit_zero (S := S4096x128) origin2, View.ld_unit_zero (S := S128x128) origin2,
    View.ld_unit_zero (S := S128) origin1, View.ld_unit_zero (S := S128x1) origin2, View.ld_unit_zero (S := S1) origin1]
  obtain ⟨-, -, -, -, -, -, -, -, -, -, e60, e61⟩ := idx_facts t
  funext j
  show k0_pay1 (F := Ideal) (iblk m c 0 t) (iblk m c 1 t) (iblk m c 2 t) (iblk m c 3 t) (iblk m c 4 t) (iblk m c 5 t) j
    = slotScores (V m c main_v13) (V m c main_v20) (V m c main_v21) (V m c main_arg3) (V m c main_arg4) (V m c main_arg5)
        (((cfg0.win 6).blk t).view.emb j)
  have hrow : ((((cfg0.win 6).blk t).view.emb j) 0).val = t.val * 4096 + (j 0).val := by
    show win0_6.index t (0 : Fin 2) * 4096 + 1 * (j 0).val = t.val * 4096 + (j 0).val
    omega
  exact pay_eq_slot _ _ _ _ _ _ _ _ _ _ _ _ j _
    (fun y k hy hk hyk => featBlock0 m c t y k (by omega) hyk)
    (fun y k hy hk hyk => featBlock1 m c t y k (by omega) hyk)
    (paramBlock2 m c t) (paramBlock3 m c t) (paramBlock4 m c t) (paramBlock5 m c t)

/-- The output array after the call: the column of all slot scores. -/
theorem final (c : Dev nD) : (dats m 0 c).arrAt 6 cfg0.N = scoresArr m c :=
  (dats m 0 c).arrAt_eq_of_cover 6 (scoresArr m c) (fun t _ => flushed_eq m c t) cover

end Cert.KernelIdeal.ArrayValue

end
-- ==== Proof.KernelHost.lean ====
/- What the kernel's call is given: the gathered node rows and the first layer's weights as the host lines before the
   call leave them.

   The host cuts the index array into its two rows, continues each by 2944 zero words so that the edges fill 489 blocks
   of 4096, moves negative words up by the table's height, and looks the rows of the node table up (the table first
   changed in format, which does not change an extended real). Below the padding, entry (e, d) of each gathered array is
   column d of the row the e-th index word of that endpoint names. -/
import proofs.«167652_j62191126446520_1_alg».proof.Proof.Gen.KernelIdeal.Frame
import proofs.«167652_j62191126446520_1_alg».proof.Proof.Spec
import proofs.«167652_j62191126446520_1_alg».proof.Proof.LibScatterGather
import Idealize.ShloMosaic.Lib.Pipeline.Value
import Idealize.ShloMosaic.Lib.ValueIdx
import Idealize.ShloMosaic.Lib.KernelVsHost
import Idealize.ShloMosaic.Lib.StableHlo.Run

noncomputable section

namespace Cert.KernelIdeal.HostValue

open Cert.KernelIdeal Cert.KernelIdeal.Gen Idealize.ShloMosaic Idealize.ShloMosaic.TcCoe Idealize.ShloMosaic.ValueIdx
open Idealize.SL.Sem Idealize.ShloMosaic.StableHlo Cert.EdgeScore

/-- Row 0 of the index array as a vector, continued by 2944 zero words. -/
def srcWords (x1 : IVec S2x2000000 32) : IVec S2002944 32 :=
  pad S2002944 ![0] ![2944] ![0]
    (shapeCast S2000000 (extractStridedSlice S1x2000000 ![0, 0] x1 slices_S2x2000000_S1x2000000_0_0) shapeCasts_S1x2000000_S2000000)
    (id (constantI S_ 32 0#32)) pads_S2000000_S2002944_029440 h_S_

/-- Row 1 of the index array as a vector, continued by 2944 zero words. -/
def dstWords (x1 : IVec S2x2000000 32) : IVec S2002944 32 :=
  pad S2002944 ![0] ![2944] ![0]
    (shapeCast S2000000 (extractStridedSlice S1x2000000 ![1, 0] x1 slices_S2x2000000_S1x2000000_1_0) shapeCasts_S1x2000000_S2000000)
    (id (constantI S_ 32 0#32)) pads_S2000000_S2002944_029440 h_S_

/-- A vector of index words, negative ones moved up by the table's height, as a column. -/
def wrapCol (P : IVec S2002944 32) : IVec S2002944x1 32 :=
  broadcastInDim S2002944x1 ![0] bcast_S2002944_S2002944x1_0
    (select (cmpi .slt P (broadcastInDim S2002944 ![] bcast_S_S2002944 (constantI S_ 32 0#32)))
      (addi P (broadcastInDim S2002944 ![] bcast_S_S2002944 (constantI S_ 32 100000#32))) P)

/-- The rows of the node table that a column of index words names. -/
def rows (z : FVec Ideal S100000x128 .f32) (col : IVec S2002944x1 32) : FVec Ideal S2002944x128 .bf16 :=
  Host.gather gather_S100000x128_S2002944x1_S2002944x128_1_0_n_n_0_1_1128 (truncf .bf16 z bitsLt_bf16_f32) col

/-- The first layer's weights in the format the call takes them in: the same extended reals. -/
def w1Of (W : FVec Ideal S128x128 .f32) : FVec Ideal S128x128 .bf16 := truncf .bf16 W bitsLt_bf16_f32

/-- Below the padding, the e-th source word is the e-th word of the index array's row 0. -/
theorem srcWords_apply (x1 : IVec S2x2000000 32) (e' : Fin 2002944) (e : Fin 2000000) (he : e'.val = e.val) :
    srcWords x1 (ix1 e') = x1 (ix2 (0 : Fin 2) e) := by
  unfold srcWords
  rw [pad_apply_of_inside ![0] ![2944] ![0] _ _ pads_S2000000_S2002944_029440 h_S_ (ix1 e') (ix1 e)
    (fun a => by match a with | ⟨0, _⟩ => show e'.val = 0 + e.val * (0 + 1); omega)]
  rw [shapeCast_apply _ shapeCasts_S1x2000000_S2000000 (ix1 e) (ix2 (0 : Fin 1) e)
    (by rw [Shape.rowMajor_val_two, Shape.rowMajor_val_one]; show 0 * 2000000 + e.val = e.val; omega)]
  exact extractStridedSlice_apply ![0, 0] x1 slices_S2x2000000_S1x2000000_0_0 (ix2 (0 : Fin 1) e) (ix2 (0 : Fin 2) e)
    (fun a => match a with
      | ⟨0, _⟩ => by show (0 : ℕ) = 0 + 0; rfl
      | ⟨1, _⟩ => by show e.val = 0 + e.val; omega)

/-- Below the padding, the e-th destination word is the e-th word of the index array's row 1. -/
theorem dstWords_apply (x1 : IVec S2x2000000 32) (e' : Fin 2002944) (e : Fin 2000000) (he : e'.val = e.val) :
    dstWords x1 (ix1 e') = x1 (ix2 (1 : Fin 2) e) := by
  unfold dstWords
  rw [pad_apply_of_inside ![0] ![2944] ![0] _ _ pads_S2000000_S2002944_029440 h_S_ (ix1 e') (ix1 e)
    (fun a => by match a with | ⟨0, _⟩ => show e'.val = 0 + e.val * (0 + 1); omega)]
  rw [shapeCast_apply _ shapeCasts_S1x2000000_S2000000 (ix1 e) (ix2 (0 : Fin 1) e)
    (by rw [Shape.rowMajor_val_two, Shape.rowMajor_val_one]; show 0 * 2000000 + e.val = e.val; omega)]
  exact extractStridedSlice_apply ![1, 0] x1 slices_S2x2000000_S1x2000000_1_0 (ix2 (0 : Fin 1) e) (ix2 (1 : Fin 2) e)
    (fun a => match a with
      | ⟨0, _⟩ => by show (1 : ℕ) = 1 + 0; rfl
      | ⟨1, _⟩ => by show e.val = 0 + e.val; omega)

/-- The column of wrapped words at e is the e-th word, wrapped. -/
theorem wrapCol_apply (P : IVec S2002944 32) (e' : Fin 2002944) :
    wrapCol P (ix2 e' (0 : Fin 1)) = wrap (P (ix1 e')) := by
  unfold wrapCol
  rw [broadcastInDim_apply _ bcast_S2002944_S2002944x1_0 _ (ix2 e' (0 : Fin 1)) (ix1 e') (fun a => match a with
    | ⟨0, _⟩ => by show e'.val = if (2002944 : ℕ) = 1 then 0 else e'.val; rw [if_neg (by decide)])]
  rfl

/-- The looked-up rows at (e, d): column d of the row the column's e-th word names. -/
theorem rows_apply (z : FVec Ideal S100000x128 .f32) (col : IVec S2002944x1 32) (e' : Fin 2002944) (d : Fin 128) :
    rows z col (ix2 e' d) = z (ix2 (Cert.ScatterGather.rowW 100000 (by decide) (col (ix2 e' (0 : Fin 1)))) d) := by
  unfold rows
  rw [Cert.ScatterGather.gather_rows_apply (by decide : 0 < 100000) gather_S100000x128_S2002944x1_S2002944x128_1_0_n_n_0_1_1128
    rfl rfl rfl rfl rfl rfl rfl _ col e' d]
  rfl

variable (m : (ℓ : Loc nD τ sig) → Buf (Elt Ideal) ℓ)

/-- The first gathered array the call is given: the source endpoints' rows. -/
theorem V_src (c : Dev nD) : (V m c main_v13 : S2002944x128.Idx → Ideal .bf16)
    = rows (m ((c : Thread nD τ).loc main_arg0)) (wrapCol (srcWords (m ((c : Thread nD τ).loc main_arg1)))) := by
  dsimp only [V, V0]
  simp only [hostOps0, hostOps0_1, hostOps0_2, hostOps0_3, hostOps0_4, List.flatten_cons, List.flatten_nil, List.append_nil,
    List.cons_append, List.nil_append]
  after_results_simp
  rfl

/-- The second gathered array the call is given: the destination endpoints' rows. -/
theorem V_dst (c : Dev nD) : (V m c main_v20 : S2002944x128.Idx → Ideal .bf16)
    = rows (m ((c : Thread nD τ).loc main_arg0)) (wrapCol (dstWords (m ((c : Thread nD τ).loc main_arg1)))) := by
  dsimp only [V, V0]
  simp only [hostOps0, hostOps0_1, hostOps0_2, hostOps0_3, hostOps0_4, List.flatten_cons, List.flatten_nil, List.append_nil,
    List.cons_append, List.nil_append]
  after_results_simp
  rfl

/-- The first layer's weights as the call is given them: the argument, changed in format only. -/
theorem V_w1 (c : Dev nD) : (V m c main_v21 : S128x128.Idx → Ideal .bf16)
    = w1Of (m ((c : Thread nD τ).loc main_arg2)) := by
  dsimp only [V, V0]
  simp only [hostOps0, hostOps0_1, hostOps0_2, hostOps0_3, hostOps0_4, List.flatten_cons, List.flatten_nil, List.append_nil,
    List.cons_append, List.nil_append]
  after_results_simp
  rfl

/-- Below the padding, entry (e, d) of the source rows is column d of the row that edge e's source word names. -/
theorem V_src_apply (c : Dev nD) (e' : Fin 2002944) (e : Fin 2000000) (he : e'.val = e.val) (d : Fin 128) :
    (V m c main_v13 : S2002944x128.Idx → Ideal .bf16) (ix2 e' d)
      = (m ((c : Thread nD τ).loc main_arg0) : FVec Ideal S100000x128 .f32)
          (ix2 (nodeRow ((m ((c : Thread nD τ).loc main_arg1) : IVec S2x2000000 32) (ix2 (0 : Fin 2) e))) d) := by
  rw [V_src, rows_apply, wrapCol_apply, srcWords_apply _ e' e he]
  rfl

/-- Below the padding, entry (e, d) of the destination rows is column d of the row that edge e's destination word names. -/
theorem V_dst_apply (c : Dev nD) (e' : Fin 2002944) (e : Fin 2000000) (he : e'.val = e.val) (d : Fin 128) :
    (V m c main_v20 : S2002944x128.Idx → Ideal .bf16) (ix2 e' d)
      = (m ((c : Thread nD τ).loc main_arg0) : FVec Ideal S100000x128 .f32)
          (ix2 (nodeRow ((m ((c : Thread nD τ).loc main_arg1) : IVec S2x2000000 32) (ix2 (1 : Fin 2) e))) d) := by
  rw [V_dst, rows_apply, wrapCol_apply, dstWords_apply _ e' e he]
  rfl

end Cert.KernelIdeal.HostValue

end
-- ==== Proof.KernelRun.lean ====
/- The kernel program's run: its result is the score of every edge.

   After the call the host keeps the first 2000000 rows of the output column and lays them out as a vector. Row e of
   the column is slot e's score, and below the padding slot e's two gathered rows are the rows edge e's index words name,
   so entry e of the result is edge e's score. The arguments end as they were launched. -/
import proofs.«167652_j62191126446520_1_alg».proof.Proof.Gen.KernelIdeal.Frame
import proofs.«167652_j62191126446520_1_alg».proof.Proof.KernelArray
import proofs.«167652_j62191126446520_1_alg».proof.Proof.KernelHost
import Idealize.ShloMosaic.Lib.Pipeline.FrameSuffix
import Idealize.ShloMosaic.Lib.Pipeline.Value
import Idealize.ShloMosaic.Lib.StableHlo.Run

noncomputable section

namespace Cert.KernelIdeal.RunValue

open Cert.KernelIdeal Cert.KernelIdeal.Gen Cert.KernelIdeal.Body Cert.KernelIdeal.ArrayValue Cert.KernelIdeal.HostValue
open Idealize.ShloMosaic Idealize.ShloMosaic.TcCoe Idealize.ShloMosaic.ValueIdx Idealize.SL.Sem Idealize.ShloMosaic.StableHlo
open Cert.EdgeScore

/-- The first 2000000 rows of a column of 2002944, as a vector. -/
def firstRows (S : FVec Ideal S2002944x1 .f32) : FVec Ideal S2000000 .f32 :=
  shapeCast S2000000 (extractStridedSlice S2000000x1 ![0, 0] S slices_S2002944x1_S2000000x1_0_0) shapeCasts_S2000000x1_S2000000

/-- Entry e of those rows is row e of the column. -/
theorem firstRows_apply (S : FVec Ideal S2002944x1 .f32) (e : Fin 2000000) (e' : Fin 2002944) (he : e'.val = e.val) :
    firstRows S (ix1 e) = S (ix2 e' (0 : Fin 1)) := by
  unfold firstRows
  rw [shapeCast_apply _ shapeCasts_S2000000x1_S2000000 (ix1 e) (ix2 e (0 : Fin 1))
    (by rw [Shape.rowMajor_val_two, Shape.rowMajor_val_one]; show e.val * 1 + 0 = e.val; omega)]
  exact extractStridedSlice_apply ![0, 0] S slices_S2002944x1_S2000000x1_0_0 (ix2 e (0 : Fin 1)) (ix2 e' (0 : Fin 1))
    (fun a => match a with
      | ⟨0, _⟩ => by show e'.val = 0 + e.val; omega
      | ⟨1, _⟩ => by show (0 : ℕ) = 0 + 0; rfl)

variable (m : (ℓ : Loc nD τ sig) → Buf (Elt Ideal) ℓ) (ρ : Dev nD → PrngReg)

/-- What the lines after the call leave as the result: the first rows of the output array as the call left it. -/
theorem tail_result (c : Dev nD) :
    (Pipeline.afterTail₀ cfgs (dats m) 0 (V0 m) [hostOps1] c main_v24 : S2000000.Idx → Ideal .f32)
      = firstRows (scoresArr m c) := by
  unfold Pipeline.afterTail₀
  show StableHlo.after hostOps1 _ (Proc.devRef .tc main_v24) = _
  after_results
  exact congrArg firstRows ((Pipeline.withArrays_arr spec0 launch0.win.arr_inj c _ _ 6).trans (final m c))

/-- The first rows of the column of slot scores are the edges' scores. -/
theorem firstRows_scores (c : Dev nD) :
    firstRows (scoresArr m c) = score (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  funext i
  obtain ⟨e, rfl⟩ : ∃ e : Fin 2000000, i = ix1 e := ⟨i 0, eq_ix1 i⟩
  have hlt : e.val < 2002944 := by have := e.isLt; omega
  rw [firstRows_apply _ e ⟨e.val, hlt⟩ rfl]
  show slotScores _ _ _ _ _ _ (ix2 (⟨e.val, hlt⟩ : Fin 2002944) (0 : Fin 1)) = scoreAt _ _ _ _ _ _ e
  unfold slotScores scoreAt edgeRow
  rw [V_w1, V_main_arg3, V_main_arg4, V_main_arg5]
  refine congrArg (fun f => mlp f _ _ _ _) (funext fun d => ?_)
  rw [V_src_apply m c ⟨e.val, hlt⟩ e rfl d, V_dst_apply m c ⟨e.val, hlt⟩ e rfl d]

/-- Every weakly fair execution of the kernel program terminates with the result at the edges' scores and the
    arguments unchanged. -/
theorem run : θ_run defs (onTc (τ := τ) (main (F := Ideal))) ⟨m, fun _ => 0, ρ⟩ (fun r => ∀ c : Dev nD,
      r.2.mem ((c.tc : Thread nD τ).loc main_v24) = score (m ((c : Thread nD τ).loc main_arg0))
        (m ((c : Thread nD τ).loc main_arg1)) (m ((c : Thread nD τ).loc main_arg2)) (m ((c : Thread nD τ).loc main_arg3))
        (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v24 (Pipeline.mem_restRefs_of main_v24 (by decide) (by decide))).trans
        ((tail_result m c).trans (firstRows_scores m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

end Cert.KernelIdeal.RunValue

end
-- ==== Proof.RefValue.lean ====
/- The reference computes the score: its last stage, read index by index, is the specification.

   Each operation of the reference is read at an index by its generated stage lemma; the two row lookups, which those
   lemmas leave unread, are read by the row-gather lemma: entry (e, d) is column d of the row the e-th index word
   names. The column of index words at e is the e-th word of the first (or second) row of the index array, moved up by
   the table's height when negative. -/
import proofs.«167652_j62191126446520_1_alg».proof.Proof.Gen.ReferenceIdeal.Read
import proofs.«167652_j62191126446520_1_alg».proof.Proof.Spec
import proofs.«167652_j62191126446520_1_alg».proof.Proof.LibScatterGather

noncomputable section

open scoped BigOperators

namespace Cert.ReferenceIdeal.RefValue

open Cert.ReferenceIdeal Cert.ReferenceIdeal.Read Idealize.ShloMosaic Idealize.ShloMosaic.ValueIdx Cert.EdgeScore

/-- The source endpoints' column of index words, at edge e: the e-th word of the index array's row 0, wrapped. -/
theorem srcCol_apply (x1 : (⟨S2x2000000, .i32⟩ : BufTy).Contents (Elt Ideal)) (e : Fin 2000000) :
    val_main_v9 (F := Ideal) x1 (ix2 e (0 : Fin 1)) = wrap (x1 (ix2 (0 : Fin 2) e)) := by
  have hi : idx_main_v0 (idx_main_v1 (idx_main_v9 (ix2 e (0 : Fin 1)))) = ix2 (0 : Fin 2) e := by
    funext a; apply Fin.ext
    match a with
    | ⟨0, _⟩ => rfl
    | ⟨1, _⟩ => show e.val % 2000000 = e.val; have := e.isLt; omega
  rw [val_main_v9_apply, val_main_v8_apply, val_main_v5_apply, val_main_v7_apply, val_main_v1_apply, val_main_v0_apply,
    val_main_v4_apply, val_main_c_apply, val_main_v6_apply, val_main_c_0_apply, hi]
  rfl

/-- The destination endpoints' column of index words, at edge e: the e-th word of the index array's row 1, wrapped. -/
theorem dstCol_apply (x1 : (⟨S2x2000000, .i32⟩ : BufTy).Contents (Elt Ideal)) (e : Fin 2000000) :
    val_main_v16 (F := Ideal) x1 (ix2 e (0 : Fin 1)) = wrap (x1 (ix2 (1 : Fin 2) e)) := by
  have hi : idx_main_v2 (idx_main_v3 (idx_main_v16 (ix2 e (0 : Fin 1)))) = ix2 (1 : Fin 2) e := by
    funext a; apply Fin.ext
    match a with
    | ⟨0, _⟩ => rfl
    | ⟨1, _⟩ => show e.val % 2000000 = e.val; have := e.isLt; omega
  rw [val_main_v16_apply, val_main_v15_apply, val_main_v12_apply, val_main_v14_apply, val_main_v3_apply, val_main_v2_apply,
    val_main_v11_apply, val_main_c_1_apply, val_main_v13_apply, val_main_c_2_apply, hi]
  rfl

/-- The gathered source rows at (e, d). -/
theorem srcRows_apply (x0 : (⟨S100000x128, .f32⟩ : BufTy).Contents (Elt Ideal)) (x1 : (⟨S2x2000000, .i32⟩ : BufTy).Contents (Elt Ideal))
    (e : Fin 2000000) (d : Fin 128) :
    val_main_v10 (F := Ideal) x0 x1 (ix2 e d) = x0 (ix2 (nodeRow (x1 (ix2 (0 : Fin 2) e))) d) := by
  unfold val_main_v10
  rw [Cert.ScatterGather.gather_rows_apply (by decide : 0 < 100000) gather_S100000x128_S2000000x1_S2000000x128_1_0_n_n_0_1_1128
    rfl rfl rfl rfl rfl rfl rfl x0 (val_main_v9 (F := Ideal) x1) e d, srcCol_apply]
  rfl

/-- The gathered destination rows at (e, d). -/
theorem dstRows_apply (x0 : (⟨S100000x128, .f32⟩ : BufTy).Contents (Elt Ideal)) (x1 : (⟨S2x2000000, .i32⟩ : BufTy).Contents (Elt Ideal))
    (e : Fin 2000000) (d : Fin 128) :
    val_main_v17 (F := Ideal) x0 x1 (ix2 e d) = x0 (ix2 (nodeRow (x1 (ix2 (1 : Fin 2) e))) d) := by
  unfold val_main_v17
  rw [Cert.ScatterGather.gather_rows_apply (by decide : 0 < 100000) gather_S100000x128_S2000000x1_S2000000x128_1_0_n_n_0_1_1128
    rfl rfl rfl rfl rfl rfl rfl x0 (val_main_v16 (F := Ideal) x1) e d, dstCol_apply]
  rfl

/-- The reference's result is the score of every edge. -/
theorem result_eq (x0 : (⟨S100000x128, .f32⟩ : BufTy).Contents (Elt Ideal)) (x1 : (⟨S2x2000000, .i32⟩ : BufTy).Contents (Elt Ideal))
    (x2 : (⟨S128x128, .f32⟩ : BufTy).Contents (Elt Ideal)) (x3 : (⟨S128, .f32⟩ : BufTy).Contents (Elt Ideal))
    (x4 : (⟨S128x1, .f32⟩ : BufTy).Contents (Elt Ideal)) (x5 : (⟨S1, .f32⟩ : BufTy).Contents (Elt Ideal)) :
    val_main_v28 (F := Ideal) x0 x1 x2 x3 x4 x5 = score x0 x1 x2 x3 x4 x5 := by
  funext i
  obtain ⟨e, rfl⟩ : ∃ e : Fin 2000000, i = ix1 e := ⟨i 0, eq_ix1 i⟩
  have h28 : idx_main_v28 (ix1 e) = ix2 e (0 : Fin 1) := by
    funext a; apply Fin.ext
    match a with
    | ⟨0, _⟩ => show e.val / 1 = e.val; omega
    | ⟨1, _⟩ => rfl
  have h25 : idx_main_v25 (idx_main_v26 (ix2 e (0 : Fin 1))) = ix1 (0 : Fin 1) := by
    funext a; apply Fin.ext
    match a with
    | ⟨0, _⟩ => rfl
  rw [val_main_v28_apply, h28, val_main_v27_apply, val_main_v24_apply, val_main_v26_apply, val_main_v25_apply, h25]
  show _ = mlp _ x2 x3 x4 x5
  unfold mlp
  refine congrArg (· + x5 (ix1 (0 : Fin 1))) (Finset.sum_congr rfl fun h _ => ?_)
  have hl : lidx_main_v24 (ix2 e (0 : Fin 1)) h = ix2 e h := by
    funext a; apply Fin.ext
    match a with
    | ⟨0, _⟩ => rfl
    | ⟨1, _⟩ => rfl
  have hr : ridx_main_v24 (ix2 e (0 : Fin 1)) h = ix2 h (0 : Fin 1) := by
    funext a; apply Fin.ext
    match a with
    | ⟨0, _⟩ => rfl
    | ⟨1, _⟩ => rfl
  have h20 : idx_main_v20 (idx_main_v21 (ix2 e h)) = ix1 h := by
    funext a; apply Fin.ext
    match a with
    | ⟨0, _⟩ => rfl
  rw [hl, hr, val_main_v23_apply, val_main_v22_apply, val_main_v19_apply, val_main_v21_apply, val_main_v20_apply, h20,
    val_main_call0_v0_apply, val_main_call0_cst_apply]
  refine congrArg (fun s => max (s + x3 (ix1 h)) zero * x4 (ix2 h (0 : Fin 1))) (Finset.sum_congr rfl fun d _ => ?_)
  have hl' : lidx_main_v19 (ix2 e h) d = ix2 e d := by
    funext a; apply Fin.ext
    match a with
    | ⟨0, _⟩ => rfl
    | ⟨1, _⟩ => rfl
  have hr' : ridx_main_v19 (ix2 e h) d = ix2 d h := by
    funext a; apply Fin.ext
    match a with
    | ⟨0, _⟩ => rfl
    | ⟨1, _⟩ => rfl
  rw [hl', hr', val_main_v18_apply, srcRows_apply, dstRows_apply]
  rfl

end Cert.ReferenceIdeal.RefValue

end
-- ==== Proof.lean ====
/- A link-prediction decoder over an edge list: both programs compute, for each of 2000000 edges, a two-layer
   perceptron of the entrywise product of the edge's two endpoint rows of a node table,

     score e = Σ_h max (Σ_d z[s e, d] · z[t e, d] · W1[d, h] + b1[h], 0) · W2[h, 0] + b2[0],

   where s e and t e are the rows the edge's two index words name (a negative word counted from the table's end, the
   result clamped into the table). The reference gathers the rows and applies two matrix products on the host. The
   kernel program pads the edge list to 489 blocks of 4096 edges, gathers the rows on the host, and runs the
   perceptron block by block in one call, the second layer as a multiply and a sum along each row; the host then keeps
   the first 2000000 scores. Over the extended reals the format changes are the identity, the matrix product into a zero
   accumulator and the row sum from zero are plain sums, and the two programs spell the same sums in the same order of
   factors, so no law of arithmetic beyond reading both sides index by index is needed, and finiteness of the inputs is
   not used.

   The frames of the two kernel programs are the generated ones; the reference's frame is its generated run with the
   result dropped. The kernel program's value is read off its generated frame run (the body's stored value at a row, the
   blocks tiling the output array, the host lines before and after the call); the reference's value is its generated
   run read one operation at a time. -/
import proofs.«167652_j62191126446520_1_alg».proof.Defs
import proofs.«167652_j62191126446520_1_alg».proof.Proof.Gen.Kernel
import proofs.«167652_j62191126446520_1_alg».proof.Proof.Gen.Kernel.Skeleton
import proofs.«167652_j62191126446520_1_alg».proof.Proof.Gen.Kernel.Launch
import proofs.«167652_j62191126446520_1_alg».proof.Proof.Gen.Kernel.Points
import proofs.«167652_j62191126446520_1_alg».proof.Proof.Gen.Kernel.Frame
import proofs.«167652_j62191126446520_1_alg».proof.Proof.Gen.KernelIdeal
import proofs.«167652_j62191126446520_1_alg».proof.Proof.Gen.KernelIdeal.Skeleton
import proofs.«167652_j62191126446520_1_alg».proof.Proof.Gen.KernelIdeal.Launch
import proofs.«167652_j62191126446520_1_alg».proof.Proof.Gen.KernelIdeal.Points
import proofs.«167652_j62191126446520_1_alg».proof.Proof.Gen.KernelIdeal.Frame
import proofs.«167652_j62191126446520_1_alg».proof.Proof.Gen.ReferenceIdeal
import proofs.«167652_j62191126446520_1_alg».proof.Proof.Gen.Pre_finite_inputs
import proofs.«167652_j62191126446520_1_alg».proof.Proof.Gen.ReferenceIdeal.Run
import proofs.«167652_j62191126446520_1_alg».proof.Proof.Gen.ReferenceIdeal.Read
import proofs.«167652_j62191126446520_1_alg».proof.Proof.KernelRun
import proofs.«167652_j62191126446520_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no call: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with every edge's score, of arguments that agree. -/
theorem algebraic : Cert.algebraic_KernelIdeal_ReferenceIdeal := by
  intro m ρ m' ρ' _ hagree
  refine ⟨_, Cert.KernelIdeal.RunValue.run m ρ, ?_⟩
  refine (θ_run Cert.ReferenceIdeal.defs _ _).mono (fun _ h c =>
      ⟨((h c).1.trans (Cert.ReferenceIdeal.Read.val_main_v28_eq _ _ _ _ _ _)).trans ?_, (h c).2⟩)
    (Cert.ReferenceIdeal.Value.run (F := Ideal) m' ρ')
  rw [Cert.ReferenceIdeal.RefValue.result_eq]
  obtain ⟨a0, a1, a2, a3, a4, a5⟩ := hagree c
  rw [a0, a1, a2, a3, a4, a5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
